-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S480x10000 : Shape := ⟨2, ![480, 10000]⟩
abbrev S480x128 : Shape := ⟨2, ![480, 128]⟩
abbrev S10000x256 : Shape := ⟨2, ![10000, 256]⟩
abbrev S1000x128 : Shape := ⟨2, ![1000, 128]⟩
abbrev S1000x256 : Shape := ⟨2, ![1000, 256]⟩
abbrev S480x256 : Shape := ⟨2, ![480, 256]⟩
abbrev S480 : Shape := ⟨1, ![480]⟩
abbrev S480x1 : Shape := ⟨2, ![480, 1]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x256, .f32⟩
  | .hbm, ⟨5, _⟩ => ⟨S10000x128, .f32⟩
  | .hbm, ⟨6, _⟩ => ⟨S10000x128, .f32⟩
  | .local _ .vmem, ⟨0, _⟩ => ⟨S10000x128, .f32⟩
  | .local _ .vmem, ⟨1, _⟩ => ⟨S128x256, .f32⟩
  | .local _ .vmem, ⟨2, _⟩ => ⟨S480x10000, .f32⟩
  | .local _ .vmem, ⟨3, _⟩ => ⟨S480x10000, .f32⟩
  | .local _ .vmem, ⟨4, _⟩ => ⟨S480x128, .f32⟩
  | .local _ .vmem, ⟨5, _⟩ => ⟨S480x128, .f32⟩
  | .local _ .vmem, ⟨6, _⟩ => ⟨S480x128, .f32⟩
  | .local _ .vmem, ⟨7, _⟩ => ⟨S480x128, .f32⟩
  | .local _ .vmem, ⟨8, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S480x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S480x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S480x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S128x128_S128x128_S128x256_d1 : Shape.Concatenates [S128x128, S128x128] S128x256 1
  inb_S10000x128_S1000x128_0_0 : ∀ a, (![0, 0] : Fin 2 → Nat) a + S1000x128.size a ≤ S10000x128.size a
  h_S1000x128 : 0 < S1000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S1000x256_0_0 : ∀ a, (![0, 0] : Fin 2 → Nat) a + S1000x256.size a ≤ S10000x256.size a
  h_S1000x256 : 0 < S1000x256.numel
  shapeCasts_S1000x256_S1000x256 : S1000x256.ShapeCasts S1000x256
  inb_S10000x128_S1000x128_1000_0 : ∀ a, (![1000, 0] : Fin 2 → Nat) a + S1000x128.size a ≤ S10000x128.size a
  inb_S10000x256_S1000x256_1000_0 : ∀ a, (![1000, 0] : Fin 2 → Nat) a + S1000x256.size a ≤ S10000x256.size a
  inb_S10000x128_S1000x128_2000_0 : ∀ a, (![2000, 0] : Fin 2 → Nat) a + S1000x128.size a ≤ S10000x128.size a
  inb_S10000x256_S1000x256_2000_0 : ∀ a, (![2000, 0] : Fin 2 → Nat) a + S1000x256.size a ≤ S10000x256.size a
  inb_S10000x128_S1000x128_3000_0 : ∀ a, (![3000, 0] : Fin 2 → Nat) a + S1000x128.size a ≤ S10000x128.size a
  inb_S10000x256_S1000x256_3000_0 : ∀ a, (![3000, 0] : Fin 2 → Nat) a + S1000x256.size a ≤ S10000x256.size a
  inb_S10000x128_S1000x128_4000_0 : ∀ a, (![4000, 0] : Fin 2 → Nat) a + S1000x128.size a ≤ S10000x128.size a
  inb_S10000x256_S1000x256_4000_0 : ∀ a, (![4000, 0] : Fin 2 → Nat) a + S1000x256.size a ≤ S10000x256.size a
  inb_S10000x128_S1000x128_5000_0 : ∀ a, (![5000, 0] : Fin 2 → Nat) a + S1000x128.size a ≤ S10000x128.size a
  inb_S10000x256_S1000x256_5000_0 : ∀ a, (![5000, 0] : Fin 2 → Nat) a + S1000x256.size a ≤ S10000x256.size a
  inb_S10000x128_S1000x128_6000_0 : ∀ a, (![6000, 0] : Fin 2 → Nat) a + S1000x128.size a ≤ S10000x128.size a
  inb_S10000x256_S1000x256_6000_0 : ∀ a, (![6000, 0] : Fin 2 → Nat) a + S1000x256.size a ≤ S10000x256.size a
  inb_S10000x128_S1000x128_7000_0 : ∀ a, (![7000, 0] : Fin 2 → Nat) a + S1000x128.size a ≤ S10000x128.size a
  inb_S10000x256_S1000x256_7000_0 : ∀ a, (![7000, 0] : Fin 2 → Nat) a + S1000x256.size a ≤ S10000x256.size a
  inb_S10000x128_S1000x128_8000_0 : ∀ a, (![8000, 0] : Fin 2 → Nat) a + S1000x128.size a ≤ S10000x128.size a
  inb_S10000x256_S1000x256_8000_0 : ∀ a, (![8000, 0] : Fin 2 → Nat) a + S1000x256.size a ≤ S10000x256.size a
  inb_S10000x128_S1000x128_9000_0 : ∀ a, (![9000, 0] : Fin 2 → Nat) a + S1000x128.size a ≤ S10000x128.size a
  inb_S10000x256_S1000x256_9000_0 : ∀ a, (![9000, 0] : Fin 2 → Nat) a + S1000x256.size a ≤ S10000x256.size a
  inb_S480x10000_S480x10000_0_0 : ∀ a, (![0, 0] : Fin 2 → Nat) a + S480x10000.size a ≤ S480x10000.size a
  h_S480x10000 : 0 < S480x10000.numel
  inb_S10000x256_S10000x256_0_0 : ∀ a, (![0, 0] : Fin 2 → Nat) a + S10000x256.size a ≤ S10000x256.size a
  h_S10000x256 : 0 < S10000x256.numel
  slices_S480x256_o0_0_S480x128 : S480x256.Slices ![0, 0] S480x128
  slices_S480x256_o0_128_S480x128 : S480x256.Slices ![0, 128] S480x128
  reduces_S480x128_S480 : S480x128.Reduces [1] S480
  shapeCasts_S480_S480x1 : S480.ShapeCasts S480x1
  broadcasts_S480x1_S480x128 : S480x1.Broadcasts S480x128
  inb_S480x128_S480x128_0_0 : ∀ a, (![0, 0] : Fin 2 → Nat) a + S480x128.size a ≤ S480x128.size a
  h_S480x128 : 0 < S480x128.numel
  dot_S1000x128_S128x256_S1000x256_1_0_0_1_n_n_wf : DotDims.WF S1000x128 S128x256 S1000x256 [1] [0] [0] [1] [] []
  dot_S480x10000_S10000x256_S480x256_1_0_0_1_n_n_wf : DotDims.WF S480x10000 S10000x256 S480x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S480x10000.size a < S10000x10000.size a
  hwx0_2 : ∀ i : grid0.Coords, EltTy.bits .f32 = 32 ∨ (Rect.unit (s := S10000x10000) (fun a => cc0_transform_2 i a * S480x10000.size a) (fun a => (Pipeline.Clip.of (cc0_transform_2 i a) (S480x10000.size a) (S10000x10000.size a)).extent (S480x10000.size a)) fun a => Pipeline.Clip.inb (Pipeline.Clip.ok_of (hstart0_2 i a))).WholeWords (EltTy.packing .f32)
  hwxs0_2 : ∀ i : grid0.Coords, EltTy.bits .f32 = 32 ∨ (Rect.unit (s := S480x10000) (fun _ => 0) (fun a => (Pipeline.Clip.of (cc0_transform_2 i a) (S480x10000.size a) (S10000x10000.size a)).extent (S480x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S480x128.size a < S10000x128.size a
  hwx0_3 : ∀ i : grid0.Coords, EltTy.bits .f32 = 32 ∨ (Rect.unit (s := S10000x128) (fun a => cc0_transform_3 i a * S480x128.size a) (fun a => (Pipeline.Clip.of (cc0_transform_3 i a) (S480x128.size a) (S10000x128.size a)).extent (S480x128.size a)) fun a => Pipeline.Clip.inb (Pipeline.Clip.ok_of (hstart0_3 i a))).WholeWords (EltTy.packing .f32)
  hwxs0_3 : ∀ i : grid0.Coords, EltTy.bits .f32 = 32 ∨ (Rect.unit (s := S480x128) (fun _ => 0) (fun a => (Pipeline.Clip.of (cc0_transform_3 i a) (S480x128.size a) (S10000x128.size a)).extent (S480x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S480x128.size a < S10000x128.size a
  hwx0_4 : ∀ i : grid0.Coords, EltTy.bits .f32 = 32 ∨ (Rect.unit (s := S10000x128) (fun a => cc0_transform_4 i a * S480x128.size a) (fun a => (Pipeline.Clip.of (cc0_transform_4 i a) (S480x128.size a) (S10000x128.size a)).extent (S480x128.size a)) fun a => Pipeline.Clip.inb (Pipeline.Clip.ok_of (hstart0_4 i a))).WholeWords (EltTy.packing .f32)
  hwxs0_4 : ∀ i : grid0.Coords, EltTy.bits .f32 = 32 ∨ (Rect.unit (s := S480x128) (fun _ => 0) (fun a => (Pipeline.Clip.of (cc0_transform_4 i a) (S480x128.size a) (S10000x128.size a)).extent (S480x128.size a)) fun a => (Nat.zero_add _).trans_le (Pipeline.Clip.extent_le (Pipeline.Clip.ok_of (hstart0_4 i a)))).WholeWords (EltTy.packing .f32)

variable [Facts₀]

def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S480x10000_S10000x256_S480x256_1_0_0_1_n_n : DotDims S480x10000 S10000x256 S480x256 where
  lhsContracting := [1]
  rhsContracting := [0]
  lhsNonContracting := [0]
  rhsNonContracting := [1]
  lhsBatch := []
  rhsBatch := []
  wf := dot_S480x10000_S10000x256_S480x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S480x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1_0) S480x128.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1_1) S480x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000, .f32⟩
  | .hbm, ⟨11, _⟩ => ⟨S10000x1, .f32⟩
  | .hbm, ⟨12, _⟩ => ⟨S10000x1, .f32⟩
  | .hbm, ⟨13, _⟩ => ⟨S_, .f32⟩
  | .hbm, ⟨14, _⟩ => ⟨S10000x1, .f32⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S10000x1, .f32⟩
  | .hbm, ⟨23, _⟩ => ⟨S_, .f32⟩
  | .hbm, ⟨24, _⟩ => ⟨S10000x1, .f32⟩
  | .hbm, ⟨25, _⟩ => ⟨S10000x1, .f32⟩
  | .hbm, ⟨26, _⟩ => ⟨S10000x128, .f32⟩
  | .hbm, ⟨27, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.WordFrame.lean ====
/-
  The word-level kernel's frame: it runs to the end, faults nowhere, and leaves its four argument arrays as they were.
  Nothing of what the body computes is named here: every staging buffer and the scratch are handed to the body at
  some contents and taken back at some contents, which is all the frame needs (the body's one branch is on the grid
  coordinate, and every access is a whole-buffer or literal-rectangle load or store).
-/
import proofs.«151991_g85478439125828_cont_9to1_m_54_7_alg».proof.Proof.Gen.Kernel.Frame
import proofs.«151991_g85478439125828_cont_9to1_m_54_7_alg».proof.Proof.Gen.Kernel.Skeleton

set_option maxRecDepth 16384

noncomputable section

namespace Cert.Kernel.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition: the grid coordinate is zero. -/
abbrev isFirst (i : grid0.Coords) : Prop :=
  Scalar.cmpi .ne (Scalar.extui (Scalar.cmpi .eq (BitVec.ofNat 32 (i 0).val) 0#32)) 0#32 = 1#1

/-- It holds at point 0 and at no other of the 21 points. -/
theorem isFirst_iff : ∀ t : Fin cfg0.N, isFirst (grid0.coords t) ↔ t.val = 0 :=
  (by decide +kernel : ∀ t : Fin grid0.N, isFirst (grid0.coords t) ↔ t.val = 0)

variable (m : (ℓ : Loc nD τ sig) → Buf (Elt F) ℓ) (ρ : Dev nD → PrngReg)

/-! ## The body on whole memrefs, nothing named -/

set_option maxHeartbeats 1000000 in
/-- THE FIRST POINT (the branch taken): from the six memrefs whole, each at some contents, the body runs to its end and
    hands the six back whole, each at some contents. Every access is a load or a store of a literal rectangle inside
    its memref, so no step can fault whatever the buffers hold. -/
theorem run_first (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S480x10000 .f32) (harg3 : arg3.IsWhole) (arg4 : Memref sig .tc .vmem S480x128 .f32) (harg4 : arg4.IsWhole) (arg5 : Memref sig .tc .vmem S480x128 .f32) (harg5 : arg5.IsWhole) (arg6 : Memref sig .tc .vmem S10000x256 .f32) (harg6 : arg6.IsWhole)
    (hc : isFirst i) :
    ∀ (E : Set ℕ) (K : PUnit → sProp 𝕄),
      iprop((∃ d, owns (c : Thread nD τ) arg1 fullShare d) ∗ (∃ d, owns (c : Thread nD τ) arg2 fullShare d) ∗ (∃ d, owns (c : Thread nD τ) arg3 fullShare d)
          ∗ (∃ d, owns (c : Thread nD τ) arg4 fullShare d) ∗ (∃ d, owns (c : Thread nD τ) arg5 fullShare d) ∗ (∃ d, owns (c : Thread nD τ) arg6 fullShare d)
          ∗ (iprop((∃ d, owns (c : Thread nD τ) arg1 fullShare d) ∗ (∃ d, owns (c : Thread nD τ) arg2 fullShare d) ∗ (∃ d, owns (c : Thread nD τ) arg3 fullShare d)
              ∗ (∃ d, owns (c : Thread nD τ) arg4 fullShare d) ∗ (∃ d, owns (c : Thread nD τ) arg5 fullShare d) ∗ (∃ d, owns (c : Thread nD τ) arg6 fullShare d)) -∗ K ⟨⟩))
        ⊢ wp frame (wpE (defs₀ (F := F)) Variants.none c none) E (cc0__gcn_body i arg1 harg1 arg2 harg2 arg3 harg3 arg4 harg4 arg5 harg5 arg6 harg6) K := by
  intro E K
  simp only [cc0__gcn_body_eq_skeleton]; unfold cc0__gcn_body_skel
  simp only [k0_part1_eq_skeleton, k0_part2_eq_skeleton]
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  sl_exec (disch := first | exact hc)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

set_option maxHeartbeats 1000000 in
/-- EVERY LATER POINT (the branch not taken): the same triple. -/
theorem run_rest (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S480x10000 .f32) (harg3 : arg3.IsWhole) (arg4 : Memref sig .tc .vmem S480x128 .f32) (harg4 : arg4.IsWhole) (arg5 : Memref sig .tc .vmem S480x128 .f32) (harg5 : arg5.IsWhole) (arg6 : Memref sig .tc .vmem S10000x256 .f32) (harg6 : arg6.IsWhole)
    (hc : ¬ isFirst i) :
    ∀ (E : Set ℕ) (K : PUnit → sProp 𝕄),
      iprop((∃ d, owns (c : Thread nD τ) arg1 fullShare d) ∗ (∃ d, owns (c : Thread nD τ) arg2 fullShare d) ∗ (∃ d, owns (c : Thread nD τ) arg3 fullShare d)
          ∗ (∃ d, owns (c : Thread nD τ) arg4 fullShare d) ∗ (∃ d, owns (c : Thread nD τ) arg5 fullShare d) ∗ (∃ d, owns (c : Thread nD τ) arg6 fullShare d)
          ∗ (iprop((∃ d, owns (c : Thread nD τ) arg1 fullShare d) ∗ (∃ d, owns (c : Thread nD τ) arg2 fullShare d) ∗ (∃ d, owns (c : Thread nD τ) arg3 fullShare d)
              ∗ (∃ d, owns (c : Thread nD τ) arg4 fullShare d) ∗ (∃ d, owns (c : Thread nD τ) arg5 fullShare d) ∗ (∃ d, owns (c : Thread nD τ) arg6 fullShare d)) -∗ K ⟨⟩))
        ⊢ wp frame (wpE (defs₀ (F := F)) Variants.none c none) E (cc0__gcn_body i arg1 harg1 arg2 harg2 arg3 harg3 arg4 harg4 arg5 harg5 arg6 harg6) K := by
  intro E K
  simp only [cc0__gcn_body_eq_skeleton]; unfold cc0__gcn_body_skel
  simp only [k0_part1_eq_skeleton, k0_part2_eq_skeleton]
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  sl_exec (disch := first | exact hc)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

/-! ## The scratch, in and out of the region's invariant -/

/-- The scratch buffer whole at some raw contents is its whole memref owned at some contents, -/
theorem scratch_in (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0) fullShare d) := by
  iintro ⟨%f, H⟩; iexists f; rw [owns_whole]; iexact H

/-- and back. -/
theorem scratch_out (c : Dev nD) :
    (iprop(∃ d, owns (c : Thread nD τ) (Memref.whole cc0_scratch0) fullShare d) : sProp 𝕄)
      ⊢ iprop(∃ f : Buf (Elt F) ((c : Thread nD τ).loc cc0_scratch0), ((c : Thread nD τ).loc cc0_scratch0) ↦{fullShare} f) := by
  iintro ⟨%d, H⟩; iexists d
  iapply (show (owns (c : Thread nD τ) (Memref.whole cc0_scratch0) fullShare d : sProp 𝕄)
      ⊢ (((c : Thread nD τ).loc cc0_scratch0) ↦{fullShare} d) from by rw [owns_whole]; first | done | exact .rfl)
  iexact H

/-! ## The pipeline's proof data: every window forgotten -/

/-- All five windows are forgotten: the frame reads none of the staging buffers' contents. -/
def forgets : Fin 5 → Bool := fun _ => true

/-- The proof data of the one pipeline on core `c`: the arrays as the region finds them; what the body leaves in each
    staging buffer is named nowhere; the invariant is the scratch at some contents and the generator register at some
    state; nothing owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body obligation -/

/-- What the body is called with at point `t`: the invariant, what the core owes, and each window's current staging
    buffer at some contents, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d))

/-- and what it returns: the same, one point on. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d))

set_option maxHeartbeats 1200000 in
/-- The body at any point: the scratch is taken out of the invariant, the point is the first or a later one, that
    case's triple applies, and the scratch goes back; the generator register and what the core owes pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl]
  unfold Pipeline.ΦA
  rw [scopedRest0_eq]
  by_cases h0 : t.val = 0
  · iintro ⟨⟨Hs, Hr⟩, Ho, H0, H1, H2, H3, H4⟩
    iapply (run_first c (grid0.coords t) _ _ _ _ _ _ _ _ _ _ _ _ ((isFirst_iff t).mpr h0) Set.univ _)
    isplitl [H0]; · iexact H0
    isplitl [H1]; · iexact H1
    isplitl [H2]; · iexact H2
    isplitl [H3]; · iexact H3
    isplitl [H4]; · iexact H4
    isplitl [Hs]; · iapply (scratch_in c); iexact Hs
    iintro ⟨H0, H1, H2, H3, H4, Hs⟩
    isplitl [Hs Hr]
    · isplitl [Hs]; · iapply (scratch_out c); iexact Hs
      iexact Hr
    isplitl [Ho]; · iexact Ho
    isplitl [H0]; · iexact H0
    isplitl [H1]; · iexact H1
    isplitl [H2]; · iexact H2
    isplitl [H3]; · iexact H3
    iexact H4
  · iintro ⟨⟨Hs, Hr⟩, Ho, H0, H1, H2, H3, H4⟩
    iapply (run_rest c (grid0.coords t) _ _ _ _ _ _ _ _ _ _ _ _ (fun h => h0 ((isFirst_iff t).mp h)) Set.univ _)
    isplitl [H0]; · iexact H0
    isplitl [H1]; · iexact H1
    isplitl [H2]; · iexact H2
    isplitl [H3]; · iexact H3
    isplitl [H4]; · iexact H4
    isplitl [Hs]; · iapply (scratch_in c); iexact Hs
    iintro ⟨H0, H1, H2, H3, H4, Hs⟩
    isplitl [Hs Hr]
    · isplitl [Hs]; · iapply (scratch_out c); iexact Hs
      iexact Hr
    isplitl [Ho]; · iexact Ho
    isplitl [H0]; · iexact H0
    isplitl [H1]; · iexact H1
    isplitl [H2]; · iexact H2
    isplitl [H3]; · iexact H3
    iexact H4

/-- The library's body obligation with every window forgotten, at every point. -/
theorem body_obligation (c : Dev nD) : BodyObligation (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main on the TensorCores terminates, and every final state has each input array of
    the pipeline at its region-entry contents (of an output the forgotten relation says nothing) and every other
    unscoped buffer at its region-entry contents. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim's post from a relational frame run: `main_arg0` and `main_arg1` are the arrays of the input windows
    0 and 2, which end at their entry contents; `main_arg2` and `main_arg3` are staged by no window (only their
    concatenation is) and bypass the region; each is at entry what it was at launch, the one host operation before
    the region writing none of the four. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (fun c => (dats m 0 c).toRForget forgets) (A_eq m) (run_main m ρ)

end Cert.Kernel.WordFrame

end
-- ==== Proof.Body.lean ====
/-
  The kernel body as a Hoare triple on whole staging memrefs, at any float instance. At the first grid point the body
  first fills the scratch with x · [W1 | W2], a thousand rows at a time; at every point it then multiplies the
  point's 480 rows of `adj` by the scratch and stores each half of the product, row-normalised, to its output
  buffer. The inputs' buffers are left as found; after the first point the scratch holds `supOf x wcat` and is
  only read.
-/
import proofs.«151991_g85478439125828_cont_9to1_m_54_7_alg».proof.Proof.Gen.KernelIdeal.Frame
import proofs.«151991_g85478439125828_cont_9to1_m_54_7_alg».proof.Proof.Gen.KernelIdeal.Skeleton
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition: the grid coordinate is zero. -/
abbrev isFirst (i : grid0.Coords) : Prop :=
  Scalar.cmpi .ne (Scalar.extui (Scalar.cmpi .eq (BitVec.ofNat 32 (i 0).val) 0#32)) 0#32 = 1#1

/-- It holds at point 0 and at no other of the 21 points. -/
theorem isFirst_iff : ∀ t : Fin cfg0.N, isFirst (grid0.coords t) ↔ t.val = 0 :=
  (by decide +kernel : ∀ t : Fin grid0.N, isFirst (grid0.coords t) ↔ t.val = 0)

/-- Rows 1000·j ‥ 1000·j + 999 of `x`: the chunk the `j`-th matrix product of the first point loads. -/
def xChunk (X : Vec F S10000x128 .f32) (j : Fin 10) : Vec F S1000x128 .f32 :=
  fun x => X (ValueIdx.ix2 (⟨1000 * j.val + (x 0).val, by
      have h : (x 0).val < 1000 := (x 0).isLt
      have hj : j.val < 10 := j.isLt
      omega⟩ : Fin 10000) (⟨(x 1).val, (x 1).isLt⟩ : Fin 128))

/-- What the ten chunk stores of the first point leave in the scratch, as ONE function of what the buffers of `x`
    and of the concatenated weights hold: row `r` is row `r % 1000` of chunk `r / 1000`'s product. -/
def supOf (X : Vec F S10000x128 .f32) (Wc : Vec F S128x256 .f32) : Vec F S10000x256 .f32 :=
  fun y => k0_pay1 (xChunk X (⟨(y 0).val / 1000, by
      have h : (y 0).val < 10000 := (y 0).isLt
      omega⟩ : Fin 10)) Wc
    (ValueIdx.ix2 (⟨(y 0).val % 1000, Nat.mod_lt _ (by decide)⟩ : Fin 1000) (⟨(y 1).val, (y 1).isLt⟩ : Fin 256))

/-- The two zero offsets are the constant-zero function. -/
private theorem hz : (![0, 0] : Fin 2 → Nat) = fun _ => 0 := by funext a; fin_cases a <;> rfl

/-- One store through the whole rectangle at zero offsets leaves its payload, whatever the buffer held before: the
    rectangle holds every index. -/
private theorem read_writes_unit_zero {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- Row `1000·j + r` of the scratch's closed form is row `r` of chunk `j`'s product, since
    `(1000·j + r) / 1000 = j` and `(1000·j + r) % 1000 = r` for `r < 1000`. -/
private theorem supOf_at (X : Vec F S10000x128 .f32) (Wc : Vec F S128x256 .f32) (j : Fin 10) (y : S10000x256.Idx)
    (x : S1000x256.Idx) (h0 : (y 0).val = 1000 * j.val + (x 0).val) (h1 : (y 1).val = (x 1).val) :
    supOf X Wc y = k0_pay1 (xChunk X j) Wc x := by
  have hx : (x 0).val < 1000 := (x 0).isLt
  have key : ∀ (a : Fin 10) (b : S1000x256.Idx), a = j → b = x →
      k0_pay1 (xChunk X a) Wc b = k0_pay1 (xChunk X j) Wc x := by
    rintro _ _ rfl rfl; rfl
  unfold supOf
  refine key _ _ (Fin.ext ?_) (funext fun a => ?_)
  · show (y 0).val / 1000 = j.val
    omega
  · match a with
    | ⟨0, _⟩ => exact Fin.ext (by show (y 0).val % 1000 = (x 0).val; omega)
    | ⟨1, _⟩ => exact Fin.ext (by show (y 1).val = (x 1).val; exact h1)

/-- The 1000 rows of `x` read from row `1000·j` on are chunk `j`: a unit-stride rectangle places its local row `r`
    at row `1000·j + r` and keeps the lane. -/
private theorem ld_chunk (X : Vec F S10000x128 .f32) (j : Fin 10) (off : Fin 2 → Nat)
    (inb : ∀ a, off a + S1000x128.size a ≤ S10000x128.size a) (h0 : off 0 = 1000 * j.val) (h1 : off 1 = 0) :
    View.ld X (Rect.unit (s := S10000x128) off S1000x128.size inb) = xChunk X j := by
  funext x
  unfold xChunk
  refine congrArg X (funext fun a => ?_)
  match a with
  | ⟨0, _⟩ => exact Fin.ext (by show off 0 + 1 * (x 0).val = 1000 * j.val + (x 0).val; omega)
  | ⟨1, _⟩ => exact Fin.ext (by show off 1 + 1 * (x 1).val = (x 1).val; omega)

/-- ONE CHUNK STORE: the product of the rows of `x` from `1000·j` on with the whole weights, at its own index `x`, is
    the scratch's closed form at the place the store's rectangle (rows from `1000·j`, all 256 lanes) puts `x`. The ten
    chunk products are one function of the chunk and the weights, so this one statement serves every store. -/
private theorem pay_at (arg1 : Memref sig .tc .vmem S10000x128 .f32) (harg1 : arg1.IsWhole)
    (arg2 : Memref sig .tc .vmem S128x256 .f32) (harg2 : arg2.IsWhole)
    (X : Vec F S10000x128 .f32) (Wc : Vec F S128x256 .f32) (j : Fin 10)
    (off1 : Fin 2 → Nat) (inb1 : ∀ a, off1 a + S1000x128.size a ≤ S10000x128.size a)
    (inb2 : ∀ a, (![0, 0] : Fin 2 → Nat) a + S128x256.size a ≤ S128x256.size a)
    (off6 : Fin 2 → Nat) (inb6 : ∀ a, off6 a + S1000x256.size a ≤ S10000x256.size a)
    (h10 : off1 0 = 1000 * j.val) (h11 : off1 1 = 0) (h60 : off6 0 = 1000 * j.val) (h61 : off6 1 = 0)
    (x : S1000x256.Idx) :
    k0_pay1 (View.readAt (Elt F) arg1.view (Rect.unit (s := S10000x128) off1 S1000x128.size inb1).toLoadRect (harg1.unread X))
        (View.readAt (Elt F) arg2.view (Rect.unit (s := S128x256) ![0, 0] S128x256.size inb2).toLoadRect (harg2.unread Wc)) x
      = supOf X Wc ((Rect.unit (s := S10000x256) off6 S1000x256.size inb6).emb x) := by
  rw [View.readAt_eq_ld, View.readAt_eq_ld, harg1.read_unread, harg2.read_unread, View.ld_unit_zero (S := S128x256) hz,
    ld_chunk X j off1 inb1 h10 h11]
  refine (supOf_at X Wc j _ x ?_ ?_).symm
  · show off6 0 + 1 * (x 0).val = 1000 * j.val + (x 0).val
    omega
  · show off6 1 + 1 * (x 1).val = (x 1).val
    omega

/-- THE FIRST POINT: the scratch (at anything) is filled with `supOf X Wc`; each output buffer (at anything) ends
    at its payload of the `adj` block and that scratch; the three input buffers are unchanged. -/
theorem run_first (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S480x10000 .f32) (harg3 : arg3.IsWhole) (arg4 : Memref sig .tc .vmem S480x128 .f32) (harg4 : arg4.IsWhole) (arg5 : Memref sig .tc .vmem S480x128 .f32) (harg5 : arg5.IsWhole) (arg6 : Memref sig .tc .vmem S10000x256 .f32) (harg6 : arg6.IsWhole)
    (hc : isFirst i) (X : Vec F S10000x128 .f32) (Wc : Vec F S128x256 .f32) (A : Vec F S480x10000 .f32) :
    ∀ (E : Set ℕ) (K : PUnit → sProp 𝕄),
      iprop(owns (c : Thread nD τ) arg1 fullShare X ∗ owns (c : Thread nD τ) arg2 fullShare Wc ∗ owns (c : Thread nD τ) arg3 fullShare A
          ∗ (∃ d, owns (c : Thread nD τ) arg4 fullShare d) ∗ (∃ d, owns (c : Thread nD τ) arg5 fullShare d) ∗ (∃ d, owns (c : Thread nD τ) arg6 fullShare d)
          ∗ (iprop(owns (c : Thread nD τ) arg1 fullShare X ∗ owns (c : Thread nD τ) arg2 fullShare Wc ∗ owns (c : Thread nD τ) arg3 fullShare A
              ∗ owns (c : Thread nD τ) arg4 fullShare (k0_pay4 A (supOf X Wc)) ∗ owns (c : Thread nD τ) arg5 fullShare (k0_pay5 A (supOf X Wc))
              ∗ owns (c : Thread nD τ) arg6 fullShare (supOf X Wc)) -∗ K ⟨⟩))
        ⊢ wp frame (wpE (defs₀ (F := F)) Variants.none c none) E (cc0__gcn_body i arg1 harg1 arg2 harg2 arg3 harg3 arg4 harg4 arg5 harg5 arg6 harg6) K := by
  intro E K
  simp only [cc0__gcn_body_eq_skeleton]; unfold cc0__gcn_body_skel
  simp only [k0_part1_eq_skeleton, k0_part2_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf1
  obtain rfl := harg2.eq_unread hf2
  obtain rfl := harg3.eq_unread hf3
  sl_exec (disch := first | exact hc)
  -- The ten stores tile the 10000 rows in blocks of 1000, and each store's payload agrees with `supOf X Wc` on its
  -- rectangle: so the scratch reads `supOf X Wc` at every index, whatever it held before.
  have hS : ∀ f : arg6.view.ty.Contents (Elt F),
      View.read (Elt F) arg6.view (arg6.view.writes (Elt F) f (run_first.sl.H6_10 c arg1 harg1 arg2 harg2 X Wc))
        = supOf X Wc := by
    intro f
    funext y
    refine View.read_writes_apply_of_pieces _ _ (supOf X Wc) _ ?_ y ?_
    · sl_unfold_words
      intro p hp
      simp only [List.mem_cons, List.not_mem_nil, or_false] at hp
      rcases hp with rfl | rfl | rfl | rfl | rfl | rfl | rfl | rfl | rfl | rfl
      · intro x; exact pay_at arg1 harg1 arg2 harg2 X Wc ⟨9, by decide⟩ ![9000, 0] inb_S10000x128_S1000x128_9000_0 inb_S128x256_S128x256_0_0 ![9000, 0] inb_S10000x256_S1000x256_9000_0 rfl rfl rfl rfl x
      · intro x; exact pay_at arg1 harg1 arg2 harg2 X Wc ⟨8, by decide⟩ ![8000, 0] inb_S10000x128_S1000x128_8000_0 inb_S128x256_S128x256_0_0 ![8000, 0] inb_S10000x256_S1000x256_8000_0 rfl rfl rfl rfl x
      · intro x; exact pay_at arg1 harg1 arg2 harg2 X Wc ⟨7, by decide⟩ ![7000, 0] inb_S10000x128_S1000x128_7000_0 inb_S128x256_S128x256_0_0 ![7000, 0] inb_S10000x256_S1000x256_7000_0 rfl rfl rfl rfl x
      · intro x; exact pay_at arg1 harg1 arg2 harg2 X Wc ⟨6, by decide⟩ ![6000, 0] inb_S10000x128_S1000x128_6000_0 inb_S128x256_S128x256_0_0 ![6000, 0] inb_S10000x256_S1000x256_6000_0 rfl rfl rfl rfl x
      · intro x; exact pay_at arg1 harg1 arg2 harg2 X Wc ⟨5, by decide⟩ ![5000, 0] inb_S10000x128_S1000x128_5000_0 inb_S128x256_S128x256_0_0 ![5000, 0] inb_S10000x256_S1000x256_5000_0 rfl rfl rfl rfl x
      · intro x; exact pay_at arg1 harg1 arg2 harg2 X Wc ⟨4, by decide⟩ ![4000, 0] inb_S10000x128_S1000x128_4000_0 inb_S128x256_S128x256_0_0 ![4000, 0] inb_S10000x256_S1000x256_4000_0 rfl rfl rfl rfl x
      · intro x; exact pay_at arg1 harg1 arg2 harg2 X Wc ⟨3, by decide⟩ ![3000, 0] inb_S10000x128_S1000x128_3000_0 inb_S128x256_S128x256_0_0 ![3000, 0] inb_S10000x256_S1000x256_3000_0 rfl rfl rfl rfl x
      · intro x; exact pay_at arg1 harg1 arg2 harg2 X Wc ⟨2, by decide⟩ ![2000, 0] inb_S10000x128_S1000x128_2000_0 inb_S128x256_S128x256_0_0 ![2000, 0] inb_S10000x256_S1000x256_2000_0 rfl rfl rfl rfl x
      · intro x; exact pay_at arg1 harg1 arg2 harg2 X Wc ⟨1, by decide⟩ ![1000, 0] inb_S10000x128_S1000x128_1000_0 inb_S128x256_S128x256_0_0 ![1000, 0] inb_S10000x256_S1000x256_1000_0 rfl rfl rfl rfl x
      · intro x; exact pay_at arg1 harg1 arg2 harg2 X Wc ⟨0, by decide⟩ ![0, 0] inb_S10000x128_S1000x128_0_0 inb_S128x256_S128x256_0_0 ![0, 0] inb_S10000x256_S1000x256_0_0 rfl rfl rfl rfl x
    · sl_unfold_words
      exact View.cover_of_tiled _ ![1000, 256] (by sl_kernel_rfl) y
  -- The whole-buffer load of the scratch after the ten stores therefore reads `supOf X Wc`.
  have hv4 : run_first.sl.v4 c arg1 harg1 arg2 harg2 arg6 X Wc = supOf X Wc := by
    unfold run_first.sl.v4
    rw [View.readCov, View.readAt_eq_ld, hS, View.ld_unit_zero (S := S10000x256) hz]
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_writes_unit_zero _ _ hz, hv4, View.readAt_eq_ld, harg3.read_unread, View.ld_unit_zero (S := S480x10000) hz]
  isplitl [H5]
  · iexists _; isplitr; swap; · iexact H5
    ipureintro
    rw [read_writes_unit_zero _ _ hz, hv4, View.readAt_eq_ld, harg3.read_unread, View.ld_unit_zero (S := S480x10000) hz]
  · iexists _; isplitr; swap; · iexact H6
    ipureintro
    exact hS _

/-- EVERY LATER POINT: the scratch, at `S`, is only read; each output buffer ends at its payload of the `adj`
    block and `S`; the three input buffers are unchanged. -/
theorem run_rest (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S480x10000 .f32) (harg3 : arg3.IsWhole) (arg4 : Memref sig .tc .vmem S480x128 .f32) (harg4 : arg4.IsWhole) (arg5 : Memref sig .tc .vmem S480x128 .f32) (harg5 : arg5.IsWhole) (arg6 : Memref sig .tc .vmem S10000x256 .f32) (harg6 : arg6.IsWhole)
    (hc : ¬ isFirst i) (X : Vec F S10000x128 .f32) (Wc : Vec F S128x256 .f32) (A : Vec F S480x10000 .f32) (S : Vec F S10000x256 .f32) :
    ∀ (E : Set ℕ) (K : PUnit → sProp 𝕄),
      iprop(owns (c : Thread nD τ) arg1 fullShare X ∗ owns (c : Thread nD τ) arg2 fullShare Wc ∗ owns (c : Thread nD τ) arg3 fullShare A
          ∗ (∃ d, owns (c : Thread nD τ) arg4 fullShare d) ∗ (∃ d, owns (c : Thread nD τ) arg5 fullShare d) ∗ owns (c : Thread nD τ) arg6 fullShare S
          ∗ (iprop(owns (c : Thread nD τ) arg1 fullShare X ∗ owns (c : Thread nD τ) arg2 fullShare Wc ∗ owns (c : Thread nD τ) arg3 fullShare A
              ∗ owns (c : Thread nD τ) arg4 fullShare (k0_pay4 A S) ∗ owns (c : Thread nD τ) arg5 fullShare (k0_pay5 A S)
              ∗ owns (c : Thread nD τ) arg6 fullShare S) -∗ K ⟨⟩))
        ⊢ wp frame (wpE (defs₀ (F := F)) Variants.none c none) E (cc0__gcn_body i arg1 harg1 arg2 harg2 arg3 harg3 arg4 harg4 arg5 harg5 arg6 harg6) K := by
  intro E K
  simp only [cc0__gcn_body_eq_skeleton]; unfold cc0__gcn_body_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg1.eq_unread hf1
  obtain rfl := harg2.eq_unread hf2
  obtain rfl := harg3.eq_unread hf3
  obtain rfl := harg6.eq_unread hf6
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [read_writes_unit_zero _ _ hz]
    simp only [View.readAt_eq_ld, harg3.read_unread, harg6.read_unread, View.ld_unit_zero (S := S480x10000) hz,
      View.ld_unit_zero (S := S10000x256) hz]
  isplitl [H5]
  · iexists _; isplitr; swap; · iexact H5
    ipureintro
    rw [read_writes_unit_zero _ _ hz]
    simp only [View.readAt_eq_ld, harg3.read_unread, harg6.read_unread, View.ld_unit_zero (S := S480x10000) hz,
      View.ld_unit_zero (S := S10000x256) hz]
  · iexists _; isplitr; · ipureintro; exact harg6.read_unread _
    iexact H6

end Cert.KernelIdeal.Body

end
-- ==== Proof.Spec.lean ====
/-
  What both programs compute, stated once over the argument arrays as extended reals: one graph-convolution layer
  with row-wise L2 normalisation. For weights `W` (128 × 128), features `x` (10000 × 128) and a dense adjacency
  `adj` (10000 × 10000):  support = x · W,  agg = adj · support,  and every row of `agg` divided by the larger of
  its Euclidean norm and the constant ε (the f32 word 0x2B8CBCCC, the same word in both programs, never evaluated).
-/
import Idealize.ShloMosaic.PureOps.Ideal
import Idealize.ShloMosaic.Lib.ValueIdx

noncomputable section

namespace Cert.Spec

open Idealize.ShloMosaic Idealize.ShloMosaic.ValueIdx

abbrev Sx : Shape := ⟨2, ![10000, 128]⟩
abbrev Sadj : Shape := ⟨2, ![10000, 10000]⟩
abbrev Sw : Shape := ⟨2, ![128, 128]⟩

/-- A row `h` of 128 entries divided by max(‖h‖₂, ε), at lane `c`. -/
def normRow (h : Fin 128 → EReal) (c : Fin 128) : EReal :=
  Ideal.div (h c) (max (Ideal.sqrt (∑ c' : Fin 128, h c' * h c')) (Ideal.ofBits .f32 0x2B8CBCCC#32))

/-- `(x · W)[k, c]`: the sum over the 128 input features. -/
def support (x : Sx.Idx → EReal) (W : Sw.Idx → EReal) (k : Fin 10000) (c : Fin 128) : EReal :=
  ∑ j : Fin 128, x (ix2 k j) * W (ix2 j c)

/-- `(adj · (x · W))[r, c]`: the sum over the 10000 nodes. -/
def agg (x : Sx.Idx → EReal) (adj : Sadj.Idx → EReal) (W : Sw.Idx → EReal) (r : Fin 10000) (c : Fin 128) : EReal :=
  ∑ k : Fin 10000, adj (ix2 r k) * support x W k c

/-- The layer's result at row `r`, lane `c`. -/
def outAt (x : Sx.Idx → EReal) (adj : Sadj.Idx → EReal) (W : Sw.Idx → EReal) (r : Fin 10000) (c : Fin 128) : EReal :=
  normRow (agg x adj W r) c

/-- The layer's result as one array. -/
def out (x : Sx.Idx → EReal) (adj : Sadj.Idx → EReal) (W : Sw.Idx → EReal) : Sx.Idx → EReal :=
  fun i => outAt x adj W (i 0) (i 1)

theorem out_ix2 (x : Sx.Idx → EReal) (adj : Sadj.Idx → EReal) (W : Sw.Idx → EReal) (r : Fin 10000) (c : Fin 128) :
    out x adj W (ix2 r c) = outAt x adj W r c := rfl

end Cert.Spec

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The idealized kernel's arithmetic read at an index, over the extended reals. The body has three kinds of pure value:
  a 1000-row chunk of `x` times the concatenated weights (ten copies, one per chunk), the 480-row block of `adj` times
  the 10000 × 256 support, and each half (lanes 0‥127, lanes 128‥255) of that product with every row divided by the
  larger of its Euclidean norm and ε. Each is a plain finite sum or a function of one row.
-/
import proofs.«151991_g85478439125828_cont_9to1_m_54_7_alg».proof.Proof.Gen.KernelIdeal.Skeleton
import proofs.«151991_g85478439125828_cont_9to1_m_54_7_alg».proof.Proof.Spec
import proofs.«151991_g85478439125828_cont_9to1_m_54_7_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- Lane `c` of the first half and of the second half of the 256-lane product. -/
abbrev lo (c : Fin 128) : Fin 256 := ⟨c.val, by omega⟩
abbrev hi (c : Fin 128) : Fin 256 := ⟨128 + c.val, by omega⟩

/-! ## The chunk product: 1000 × 128 times 128 × 256 -/

/-- The left operand's index of the chunk product keeps the output row … -/
private theorem lhs1_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
/-- … and takes the contracted coordinate as its column; -/
private theorem lhs1_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
/-- the right operand's takes the contracted coordinate as its row … -/
private theorem rhs1_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
/-- … and keeps the output column. -/
private theorem rhs1_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The chunk product into a zero accumulator, at (p, q): the contraction index is its one coordinate, so the sum over it
    is the sum over the 128 features. -/
private theorem mm1_apply (prec : Option ContractPrecision) (xc : FVec Ideal S1000x128 .f32) (w : FVec Ideal S128x256 .f32)
    (p : Fin 1000) (q : Fin 256) :
    matmul dot_S1000x128_S128x256_S1000x256_1_0_0_1_n_n prec xc w (constant (F := Ideal) S1000x256 .f32 0x00000000#32) (ix2 p q)
      = ∑ j : Fin 128, xc (ix2 p j) * w (ix2 j q) := by
  refine (Ideal.matmul_constant_zero_apply dot_S1000x128_S128x256_S1000x256_1_0_0_1_n_n prec xc w (ix2 p q)).trans ?_
  rw [← Equiv.sum_comp (ValueIdx.contrEquiv1 dot_S1000x128_S128x256_S1000x256_1_0_0_1_n_n 128 rfl rfl).symm]
  refine Finset.sum_congr rfl fun k _ => ?_
  have hk := ValueIdx.contrEquiv1_symm_val dot_S1000x128_S128x256_S1000x256_1_0_0_1_n_n 128 rfl rfl k
  have el : dot_S1000x128_S128x256_S1000x256_1_0_0_1_n_n.lhsIdx (ix2 p q) ((ValueIdx.contrEquiv1 dot_S1000x128_S128x256_S1000x256_1_0_0_1_n_n 128 rfl rfl).symm k) = ix2 p k := funext fun a => Fin.ext (by
    match a with
    | ⟨0, _⟩ => exact lhs1_0 _ _
    | ⟨1, _⟩ => exact (lhs1_1 _ _).trans hk)
  have er : dot_S1000x128_S128x256_S1000x256_1_0_0_1_n_n.rhsIdx (ix2 p q) ((ValueIdx.contrEquiv1 dot_S1000x128_S128x256_S1000x256_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- One chunk of `x` times the concatenated weights, at (p, q): the sum over the 128 features. -/
theorem chunk_apply (xc : Vec Ideal S1000x128 .f32) (w : Vec Ideal S128x256 .f32) (p : Fin 1000) (q : Fin 256) :
    k0_pay1 (F := Ideal) xc w (ix2 p q) = ∑ j : Fin 128, xc (ix2 p j) * w (ix2 j q) := by
  unfold k0_pay1
  rw [shapeCast_self, shapeCast_self]
  exact mm1_apply _ xc w p q

/-- The ten chunk payloads are one function. -/
theorem pay2_eq : k0_pay2 (F := Ideal) = k0_pay1 (F := Ideal) := rfl
theorem pay6_eq : k0_pay6 (F := Ideal) = k0_pay1 (F := Ideal) := rfl
theorem pay7_eq : k0_pay7 (F := Ideal) = k0_pay1 (F := Ideal) := rfl
theorem pay8_eq : k0_pay8 (F := Ideal) = k0_pay1 (F := Ideal) := rfl
theorem pay9_eq : k0_pay9 (F := Ideal) = k0_pay1 (F := Ideal) := rfl
theorem pay10_eq : k0_pay10 (F := Ideal) = k0_pay1 (F := Ideal) := rfl
theorem pay11_eq : k0_pay11 (F := Ideal) = k0_pay1 (F := Ideal) := rfl
theorem pay12_eq : k0_pay12 (F := Ideal) = k0_pay1 (F := Ideal) := rfl
theorem pay13_eq : k0_pay13 (F := Ideal) = k0_pay1 (F := Ideal) := rfl

/-! ## The block product: 480 × 10000 times 10000 × 256 -/

/-- The left operand's index of the block product keeps the output row … -/
private theorem lhs3_0 (i : S480x256.Idx) (q : dot_S480x10000_S10000x256_S480x256_1_0_0_1_n_n.contr.Idx) :
    (dot_S480x10000_S10000x256_S480x256_1_0_0_1_n_n.lhsIdx i q 0).val = (i 0).val := by
  unfold DotDims.lhsIdx
  rw [dif_neg (show ¬(0 : Fin S480x10000.rank) ∈ dot_S480x10000_S10000x256_S480x256_1_0_0_1_n_n.lhsBatch by decide), dif_pos (show (0 : Fin S480x10000.rank) ∈ dot_S480x10000_S10000x256_S480x256_1_0_0_1_n_n.lhsNonContracting by decide)]
  rfl
/-- … and takes the contracted coordinate as its column; -/
private theorem lhs3_1 (i : S480x256.Idx) (q : dot_S480x10000_S10000x256_S480x256_1_0_0_1_n_n.contr.Idx) :
    (dot_S480x10000_S10000x256_S480x256_1_0_0_1_n_n.lhsIdx i q 1).val = (q ⟨0, by decide⟩).val :=
  dot_S480x10000_S10000x256_S480x256_1_0_0_1_n_n.lhsIdx_val_of_single rfl i q
/-- the right operand's takes the contracted coordinate as its row … -/
private theorem rhs3_0 (i : S480x256.Idx) (q : dot_S480x10000_S10000x256_S480x256_1_0_0_1_n_n.contr.Idx) :
    (dot_S480x10000_S10000x256_S480x256_1_0_0_1_n_n.rhsIdx i q 0).val = (q ⟨0, by decide⟩).val :=
  dot_S480x10000_S10000x256_S480x256_1_0_0_1_n_n.rhsIdx_val_of_single rfl i q
/-- … and keeps the output column. -/
private theorem rhs3_1 (i : S480x256.Idx) (q : dot_S480x10000_S10000x256_S480x256_1_0_0_1_n_n.contr.Idx) :
    (dot_S480x10000_S10000x256_S480x256_1_0_0_1_n_n.rhsIdx i q 1).val = (i 1).val := by
  unfold DotDims.rhsIdx
  rw [dif_neg (show ¬(1 : Fin S10000x256.rank) ∈ dot_S480x10000_S10000x256_S480x256_1_0_0_1_n_n.rhsBatch by decide), dif_pos (show (1 : Fin S10000x256.rank) ∈ dot_S480x10000_S10000x256_S480x256_1_0_0_1_n_n.rhsNonContracting by decide)]
  rfl

/-- The block product into a zero accumulator, at (r, q): the sum over the 10000 nodes. -/
private theorem mm3_apply (prec : Option ContractPrecision) (a : FVec Ideal S480x10000 .f32) (s : FVec Ideal S10000x256 .f32)
    (r : Fin 480) (q : Fin 256) :
    matmul dot_S480x10000_S10000x256_S480x256_1_0_0_1_n_n prec a s (constant (F := Ideal) S480x256 .f32 0x00000000#32) (ix2 r q)
      = ∑ k : Fin 10000, a (ix2 r k) * s (ix2 k q) := by
  refine (Ideal.matmul_constant_zero_apply dot_S480x10000_S10000x256_S480x256_1_0_0_1_n_n prec a s (ix2 r q)).trans ?_
  rw [← Equiv.sum_comp (ValueIdx.contrEquiv1 dot_S480x10000_S10000x256_S480x256_1_0_0_1_n_n 10000 rfl rfl).symm]
  refine Finset.sum_congr rfl fun k _ => ?_
  have hk := ValueIdx.contrEquiv1_symm_val dot_S480x10000_S10000x256_S480x256_1_0_0_1_n_n 10000 rfl rfl k
  have el : dot_S480x10000_S10000x256_S480x256_1_0_0_1_n_n.lhsIdx (ix2 r q) ((ValueIdx.contrEquiv1 dot_S480x10000_S10000x256_S480x256_1_0_0_1_n_n 10000 rfl rfl).symm k) = ix2 r k := funext fun ax => Fin.ext (by
    match ax with
    | ⟨0, _⟩ => exact lhs3_0 _ _
    | ⟨1, _⟩ => exact (lhs3_1 _ _).trans hk)
  have er : dot_S480x10000_S10000x256_S480x256_1_0_0_1_n_n.rhsIdx (ix2 r q) ((ValueIdx.contrEquiv1 dot_S480x10000_S10000x256_S480x256_1_0_0_1_n_n 10000 rfl rfl).symm k) = ix2 k q := funext fun ax => Fin.ext (by
    match ax with
    | ⟨0, _⟩ => exact (rhs3_0 _ _).trans hk
    | ⟨1, _⟩ => exact rhs3_1 _ _)
  rw [el, er]

/-- The block of `adj` times the support, at (r, q): the sum over the 10000 nodes. -/
theorem pay3_apply (a : Vec Ideal S480x10000 .f32) (s : Vec Ideal S10000x256 .f32) (r : Fin 480) (q : Fin 256) :
    k0_pay3 (F := Ideal) a s (ix2 r q) = ∑ k : Fin 10000, a (ix2 r k) * s (ix2 k q) := by
  unfold k0_pay3
  exact mm3_apply none a s r q

/-! ## One half of the product, normalised row by row -/

/-- The index of the 480 × 128 block over row `r` with lane `k` put back on the summed axis is (r, k). -/
private theorem lift_row (r : Fin 480) (k : Fin 128) :
    reduces_S480x128_S480.lift (ix1 r) k = ix2 r k :=
  funext fun ax => Fin.ext (by
    match ax with
    | ⟨0, _⟩ => rfl
    | ⟨1, _⟩ => rfl)

/-- The lane sum of a 480 × 128 block at row `r`. -/
private theorem rowsum_apply (u : FVec Ideal S480x128 .f32) (hφ : FKind.Formats FTy.f32)
    (hacc : (0x00000000#32 : BitVec 32) = 0x00000000#32) (r : Fin 480) :
    multiReduction (F := Ideal) .add [1] S480 u 0x00000000#32 reduces_S480x128_S480 hφ hacc (ix1 r)
      = ∑ c' : Fin 128, u (ix2 r c') := by
  refine (Ideal.multiReduction_add_single u 0x00000000#32 reduces_S480x128_S480 hφ hacc (ix1 r)).trans ?_
  exact Finset.sum_congr rfl fun k _ => congrArg u (lift_row r k)

/-- The normalisation of a 480 × 128 block `v` as the body writes it — the squares summed along the lanes, the sum kept
    as a column, its root, the larger of that and ε, the column spread back over the lanes, the quotient — is, at (r, c),
    row `r` of `v` divided by the larger of its Euclidean norm and ε. -/
private theorem norm_apply (v : FVec Ideal S480x128 .f32) (hφ : FKind.Formats FTy.f32)
    (hacc : (0x00000000#32 : BitVec 32) = 0x00000000#32) (r : Fin 480) (c : Fin 128) :
    divf v (broadcastTo S480x128 (maximumf (sqrt (shapeCast S480x1
        (multiReduction (F := Ideal) .add [1] S480 (mulf v v) 0x00000000#32 reduces_S480x128_S480 hφ hacc) shapeCasts_S480_S480x1))
        (broadcast S480x1 (Scalar.ofBits (F := Ideal) .f32 0x2B8CBCCC#32))) broadcasts_S480x1_S480x128) (ix2 r c)
      = Cert.Spec.normRow (fun c' => v (ix2 r c')) c := by
  unfold Cert.Spec.normRow
  refine congrArg (Ideal.div (v (ix2 r c))) ?_
  refine (Cert.LibKeepdims.broadcastTo_a1_ab_apply _ broadcasts_S480x1_S480x128 r c).trans ?_
  refine congrArg (fun t => max (Ideal.sqrt t) (Ideal.ofBits .f32 0x2B8CBCCC#32)) ?_
  refine (Cert.LibKeepdims.shapeCast_a_a1_apply _ shapeCasts_S480_S480x1 r (0 : Fin 1)).trans ?_
  exact rowsum_apply (mulf v v) hφ hacc r

/-- The first output block at (r, c): row `r` of the first half of the product, normalised. -/
theorem pay4_apply (a : Vec Ideal S480x10000 .f32) (s : Vec Ideal S10000x256 .f32) (r : Fin 480) (c : Fin 128) :
    k0_pay4 (F := Ideal) a s (ix2 r c)
      = Cert.Spec.normRow (fun c' => ∑ k : Fin 10000, a (ix2 r k) * s (ix2 k (lo c'))) c := by
  unfold k0_pay4
  refine (norm_apply _ _ _ r c).trans ?_
  refine congrArg (fun h => Cert.Spec.normRow h c) (funext fun c' => ?_)
  exact (slice2_axis1_apply 0 (k0_pay3 (F := Ideal) a s) slices_S480x256_o0_0_S480x128 r c' (lo c')
    (Nat.zero_add _).symm).trans (pay3_apply a s r (lo c'))

/-- The second output block at (r, c): row `r` of the second half of the product, normalised. -/
theorem pay5_apply (a : Vec Ideal S480x10000 .f32) (s : Vec Ideal S10000x256 .f32) (r : Fin 480) (c : Fin 128) :
    k0_pay5 (F := Ideal) a s (ix2 r c)
      = Cert.Spec.normRow (fun c' => ∑ k : Fin 10000, a (ix2 r k) * s (ix2 k (hi c'))) c := by
  unfold k0_pay5
  refine (norm_apply _ _ _ r c).trans ?_
  refine congrArg (fun h => Cert.Spec.normRow h c) (funext fun c' => ?_)
  exact (slice2_axis1_apply 128 (k0_pay3 (F := Ideal) a s) slices_S480x256_o0_128_S480x128 r c' (hi c')
    rfl).trans (pay3_apply a s r (hi c'))

/-- Row `r` of either output block depends on row `r` of the `adj` block only. -/
theorem pay4_row_congr (a a' : Vec Ideal S480x10000 .f32) (s : Vec Ideal S10000x256 .f32) (r : Fin 480)
    (h : ∀ k : Fin 10000, a (ix2 r k) = a' (ix2 r k)) (c : Fin 128) :
    k0_pay4 (F := Ideal) a s (ix2 r c) = k0_pay4 (F := Ideal) a' s (ix2 r c) := by
  rw [pay4_apply, pay4_apply]; simp only [h]
theorem pay5_row_congr (a a' : Vec Ideal S480x10000 .f32) (s : Vec Ideal S10000x256 .f32) (r : Fin 480)
    (h : ∀ k : Fin 10000, a (ix2 r k) = a' (ix2 r k)) (c : Fin 128) :
    k0_pay5 (F := Ideal) a s (ix2 r c) = k0_pay5 (F := Ideal) a' s (ix2 r c) := by
  rw [pay5_apply, pay5_apply]; simp only [h]

end Cert.KernelIdeal.Pay

end
-- ==== Proof.Scratch.lean ====
/-
  The scratch after the first grid point, read at an index over the extended reals: row `k` of `x` times the
  concatenated weights. The ten stored chunks are rows 1000·j ‥ 1000·j + 999 of one product, so entry (k, q) is the
  sum over the 128 features of x[k, ·] · wcat[·, q].
-/
import proofs.«151991_g85478439125828_cont_9to1_m_54_7_alg».proof.Proof.Body
import proofs.«151991_g85478439125828_cont_9to1_m_54_7_alg».proof.Proof.Payload

set_option maxRecDepth 16384

noncomputable section

namespace Cert.KernelIdeal.Body

open Cert.KernelIdeal Cert.KernelIdeal.Gen
open Idealize.ShloMosaic Idealize.ShloMosaic.ValueIdx

/-- Row `k % 1000` of chunk `k / 1000` of `x` is row `k` of `x`: 1000 · (k / 1000) + k % 1000 = k. -/
private theorem xChunk_row (X : Vec Ideal S10000x128 .f32) (k : Fin 10000) (j : Fin 128)
    (h1 : k.val / 1000 < 10) (h2 : k.val % 1000 < 1000) :
    xChunk (F := Ideal) X ⟨k.val / 1000, h1⟩ (ix2 (⟨k.val % 1000, h2⟩ : Fin 1000) j) = X (ix2 k j) := by
  unfold xChunk
  refine congrArg X (funext fun ax => ?_)
  match ax with
  | ⟨0, _⟩ => exact Fin.ext (Nat.div_add_mod k.val 1000)
  | ⟨1, _⟩ => rfl

theorem supOf_apply (X : Vec Ideal S10000x128 .f32) (Wc : Vec Ideal S128x256 .f32) (k : Fin 10000) (q : Fin 256) :
    supOf (F := Ideal) X Wc (ix2 k q) = ∑ j : Fin 128, X (ix2 k j) * Wc (ix2 j q) := by
  unfold supOf
  refine (Cert.KernelIdeal.Pay.chunk_apply _ Wc _ _).trans ?_
  exact Finset.sum_congr rfl fun j _ => congrArg (· * Wc (ix2 j q)) (xChunk_row X k j _ _)

end Cert.KernelIdeal.Body

end
-- ==== Proof.Inputs.lean ====
/-
  The kernel's three input windows read at an index, as the region finds them. The windows of `x` and of the
  concatenated weights have ONE block, the whole array, so what the body loads from their buffers is the array itself;
  the concatenated weights are W1 on lanes 0‥127 and W2 on lanes 128‥255; and row `j` of point `t`'s block of `adj`
  is row 480·t + j of `adj`.
-/
import proofs.«151991_g85478439125828_cont_9to1_m_54_7_alg».proof.Proof.Gen.KernelIdeal.Frame
import proofs.«151991_g85478439125828_cont_9to1_m_54_7_alg».proof.Proof.Payload

set_option maxRecDepth 16384

noncomputable section

namespace Cert.KernelIdeal.Inputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

variable (m : (ℓ : Loc nD τ sig) → Buf (Elt F) ℓ)

/-- No window-0 block index moves: it is (0, 0) at every point. -/
private theorem index0_zero (t : Fin cfg0.N) (a : Fin (cfg0.win 0).shape.rank) : (cfg0.win 0).index t a = 0 := by
  match a with
  | ⟨0, _⟩ => rfl
  | ⟨1, _⟩ => rfl

/-- Nor does window 1's. -/
private theorem index1_zero (t : Fin cfg0.N) (a : Fin (cfg0.win 1).shape.rank) : (cfg0.win 1).index t a = 0 := by
  match a with
  | ⟨0, _⟩ => rfl
  | ⟨1, _⟩ => rfl

/-- Window 2's block index at point t is (t, 0). -/
private theorem index2 : ∀ t : Fin cfg0.N, (cfg0.win 2).index t 0 = t.val ∧ (cfg0.win 2).index t 1 = 0 :=
  (by decide +kernel : ∀ t : Fin grid0.N, win0_2.index t 0 = t.val ∧ win0_2.index t 1 = 0)

/-- Window 0's one block is the whole of `x`. -/
theorem iblk0_eq (c : Dev nD) (t : Fin cfg0.N) :
    iblk m c 0 t = (V m c main_arg0 : S10000x128.Idx → Elt F .f32) := by
  funext y
  unfold iblk
  rw [View.read_apply]
  show (V m c main_arg0 : S10000x128.Idx → Elt F .f32) (((cfg0.win 0).rect t).emb y) = (V m c main_arg0 : S10000x128.Idx → Elt F .f32) y
  refine congrArg _ (funext fun a => Fin.ext ?_)
  exact Window.rect_emb_val_of_index_zero (cfg0.win 0) t a (index0_zero t a) y

/-- Window 1's one block is the whole of the concatenated weights. -/
theorem iblk1_eq (c : Dev nD) (t : Fin cfg0.N) :
    iblk m c 1 t = (V m c main_v0 : S128x256.Idx → Elt F .f32) := by
  funext y
  unfold iblk
  rw [View.read_apply]
  show (V m c main_v0 : S128x256.Idx → Elt F .f32) (((cfg0.win 1).rect t).emb y) = (V m c main_v0 : S128x256.Idx → Elt F .f32) y
  refine congrArg _ (funext fun a => Fin.ext ?_)
  exact Window.rect_emb_val_of_index_zero (cfg0.win 1) t a (index1_zero t a) y

/-- `x` is found as launched. -/
theorem x_eq (c : Dev nD) : (V m c main_arg0 : S10000x128.Idx → Elt F .f32) = m ((c.tc : Thread nD τ).loc main_arg0) :=
  V_main_arg0 m c

/-- The one host operation before the region wrote the weights' array: W1 and W2 side by side along the lanes. -/
private theorem wcat_e (c : Dev nD) : (V m c main_v0 : S128x256.Idx → Elt F .f32) = concatenate S128x256 1 [⟨S128x128, m ((c.tc : Thread nD τ).loc main_arg2)⟩, ⟨S128x128, m ((c.tc : Thread nD τ).loc main_arg3)⟩] concatenates_S128x128_S128x128_S128x256_d1 := by
  dsimp only [Gen.V, Gen.hostOps0]
  after_results

/-- Lanes 0‥127 of the concatenated weights are W1, -/
theorem wcat_lo (c : Dev nD) (j q : Fin 128) :
    (V m c main_v0 : S128x256.Idx → Elt F .f32) (ix2 j (Cert.KernelIdeal.Pay.lo q))
      = (m ((c.tc : Thread nD τ).loc main_arg2) : S128x128.Idx → Elt F .f32) (ix2 j q) := by
  rw [wcat_e]
  exact concatenate_pair_apply_left (t := S128x256) (s₁ := S128x128) (s₂ := S128x128) 1 _ _ _ (ix2 j (Cert.KernelIdeal.Pay.lo q)) rfl (ix2 j q)
    (fun b => by match b with | ⟨0, _⟩ => rfl | ⟨1, _⟩ => rfl)

/-- and lanes 128‥255 are W2. -/
theorem wcat_hi (c : Dev nD) (j q : Fin 128) :
    (V m c main_v0 : S128x256.Idx → Elt F .f32) (ix2 j (Cert.KernelIdeal.Pay.hi q))
      = (m ((c.tc : Thread nD τ).loc main_arg3) : S128x128.Idx → Elt F .f32) (ix2 j q) := by
  rw [wcat_e]
  exact concatenate_pair_apply_right (t := S128x256) (s₁ := S128x128) (s₂ := S128x128) 1 _ _ _ (ix2 j (Cert.KernelIdeal.Pay.hi q)) rfl rfl (ix2 j q)
    (fun b hb => by match b, hb with | ⟨0, _⟩, _ => rfl | ⟨1, _⟩, hb => exact absurd rfl hb)
    (by show q.val + 128 = 128 + q.val; omega)

/-- Point `t`'s block of `adj` at block index `j` (its rows inside the array) is `adj` at row 480·t + j₀, column j₁. -/
theorem adj_row (c : Dev nD) (t : Fin cfg0.N) (j : ((cfg0.win 2).xblock (cfg0.grid.coords t)).Idx)
    (r k : Fin 10000) (hr : r.val = 480 * t.val + (j 0).val) (hk : k.val = (j 1).val) :
    iblk m c 2 t j = (m ((c.tc : Thread nD τ).loc main_arg1) : S10000x10000.Idx → Elt F .f32) (ix2 r k) := by
  unfold iblk
  rw [View.read_apply]
  show (V m c main_arg1 : S10000x10000.Idx → Elt F .f32) (((cfg0.win 2).rect t).emb j) = _
  rw [V_main_arg1]
  refine congrArg _ (funext fun a => Fin.ext ?_)
  have h2 := index2 t
  match a with
  | ⟨0, _⟩ =>
    have e := Window.rect_emb_val (cfg0.win 2) t j 0
    rw [h2.1] at e
    show ((((cfg0.win 2).rect t).emb j 0 : Fin _) : Nat) = r.val
    rw [e, hr]
    show t.val * 480 + (j 0).val = 480 * t.val + (j 0).val
    omega
  | ⟨1, _⟩ =>
    have e := Window.rect_emb_val (cfg0.win 2) t j 1
    rw [h2.2] at e
    show ((((cfg0.win 2).rect t).emb j 1 : Fin _) : Nat) = k.val
    rw [e, hk]
    show 0 * 10000 + (j 1).val = (j 1).val
    omega

end Cert.KernelIdeal.Inputs

end
-- ==== Proof.Data.lean ====
/-
  The idealized kernel's pipeline run with every staging buffer named. Proof data: `x` and the concatenated weights
  sit unchanged in their single buffers; the `adj` window's buffer holds the point's 480 rows (the last point's
  block overhangs the array by 80 rows: those hold whatever the machine left, and nothing kept depends on them, because
  a row of the product reads only the same row of `adj`); each output buffer holds the row-normalised half of
  adjBlock · support. The scratch is carried in the invariant: anything before the first point, `sup` after it.
-/
import proofs.«151991_g85478439125828_cont_9to1_m_54_7_alg».proof.Proof.Scratch
import proofs.«151991_g85478439125828_cont_9to1_m_54_7_alg».proof.Proof.Inputs

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- `x` and the concatenated weights as the region finds them. -/
def xArr (c : Dev nD) : Vec Ideal S10000x128 .f32 := V m c main_arg0
def wcat (c : Dev nD) : Vec Ideal S128x256 .f32 := V m c main_v0
/-- The scratch from the first point on: x · [W1 | W2]. -/
def sup (c : Dev nD) : Vec Ideal S10000x256 .f32 := supOf (F := Ideal) (xArr m c) (wcat m c)
/-- Point `t`'s rows of `adj`, zero past the array's end. -/
def adjBlk (c : Dev nD) (t : Fin cfg0.N) : Vec Ideal S480x10000 .f32 :=
  win0_2.fill (grid0.coords t) (fun _ => (0 : EReal)) (iblk m c 2 t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBlk m c t
    | ⟨3, _⟩ => k0_pay4 (F := Ideal) (adjBlk m c t) (sup m c)
    | ⟨4, _⟩ => k0_pay5 (F := Ideal) (adjBlk m c t) (sup m c)
  Φ t := iprop((if t.val = 0 then iprop(∃ d, owns (c : Thread nD τ) (Memref.whole cc0_scratch0) fullShare d)
                else owns (c : Thread nD τ) (Memref.whole cc0_scratch0) fullShare (sup m c))
              ∗ ∃ r, prngReg c r)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = adjBlk m c t := by dsimp only [dats]
theorem after3 (c : Dev nD) (t : Fin cfg0.N) : (dats m 0 c).after 3 t = k0_pay4 (F := Ideal) (adjBlk m c t) (sup m c) := by dsimp only [dats]
theorem after4 (c : Dev nD) (t : Fin cfg0.N) : (dats m 0 c).after 4 t = k0_pay5 (F := Ideal) (adjBlk m c t) (sup m c) := by dsimp only [dats]

/-- Windows 0 and 1 hold their blocks whenever the body runs. -/
theorem before_0 (c : Dev nD) (t : Fin cfg0.N) (d) : (dats m 0 c).before 0 t d = iblk m c 0 t :=
  before0_0_of m (dats m 0 c) (A_eq m c 0) (after0 m c) t d
theorem before_1 (c : Dev nD) (t : Fin cfg0.N) (d) : (dats m 0 c).before 1 t d = iblk m c 1 t :=
  before0_1_of m (dats m 0 c) (A_eq m c 1) (after1 m c) t d

/-- The `adj` window is fetched at every point: its buffer holds the block on the rows inside the array and
    whatever it held, `d`, past them. -/
theorem before_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]

/-- Each output window is written back at every point: its buffer holds anything when the body runs. -/
theorem before_3 (c : Dev nD) (t : Fin cfg0.N) (d) : (dats m 0 c).before 3 t d = d :=
  (dats m 0 c).before_out_reset 3 rfl t
    (by by_cases h : t.val = 0
        · exact .inl h
        · exact .inr ⟨h, flush0_3 _⟩) d
theorem before_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-- Windows 0 and 1 have one block, the whole array: what their buffers hold is `x` and the concatenated weights. -/
theorem iblk0_eq (c : Dev nD) (t : Fin cfg0.N) : iblk m c 0 t = xArr m c := Inputs.iblk0_eq m c t
theorem iblk1_eq (c : Dev nD) (t : Fin cfg0.N) : iblk m c 1 t = wcat m c := Inputs.iblk1_eq m c t

/-- The three moving windows cut alike: at every point each output's transfer moves as many rows as the `adj`
    window's, and the `adj` window's moves every column. -/
theorem xsize_rows : ∀ t : Fin cfg0.N,
    win0_3.xsize (grid0.coords t) 0 = win0_2.xsize (grid0.coords t) 0
      ∧ win0_4.xsize (grid0.coords t) 0 = win0_2.xsize (grid0.coords t) 0
      ∧ win0_2.xsize (grid0.coords t) 1 = 10000 :=
  (by decide +kernel : ∀ t : Fin grid0.N,
    win0_3.xsize (grid0.coords t) 0 = win0_2.xsize (grid0.coords t) 0
      ∧ win0_4.xsize (grid0.coords t) 0 = win0_2.xsize (grid0.coords t) 0
      ∧ win0_2.xsize (grid0.coords t) 1 = 10000)

/-- On the part the transfer moves, a filled block does not depend on what it was filled over. -/
theorem fill_eq_of_moved {α : Type} (i : grid0.Coords) (d d' : win0_2.block.Idx → α) (g : (win0_2.xblock i).Idx → α)
    (j : win0_2.block.Idx) (h : win0_2.moved i j = true) : win0_2.fill i d g j = win0_2.fill i d' g j := by
  unfold Window.fill; rw [dif_pos h, dif_pos h]

/-- A row of the `adj` buffer inside the array is the block's row, whatever lies past the array's end. -/
theorem adjBuf_row (c : Dev nD) (t : Fin cfg0.N) (d : win0_2.block.Idx → Elt Ideal .f32) (r : Fin 480)
    (hr : r.val < win0_2.xsize (grid0.coords t) 0) (k : Fin 10000) :
    win0_2.fill (grid0.coords t) d (iblk m c 2 t) (ValueIdx.ix2 r k) = adjBlk m c t (ValueIdx.ix2 r k) := by
  unfold adjBlk
  apply fill_eq_of_moved
  rw [Window.moved_iff]
  intro a
  match a with
  | ⟨0, _⟩ => exact hr
  | ⟨1, _⟩ =>
    show k.val < win0_2.xsize (grid0.coords t) 1
    rw [(xsize_rows t).2.2]; exact k.isLt

/-- What the body leaves in each output buffer agrees, on the rows the write-back moves, with the payload of the
    block filled out with zeros: a row of the product reads only the same row of `adj`. -/
theorem cut_pay4 (c : Dev nD) (t : Fin cfg0.N) (d : win0_2.block.Idx → Elt Ideal .f32) (S : Vec Ideal S10000x256 .f32) :
    win0_3.cut (grid0.coords t) (k0_pay4 (F := Ideal) (win0_2.fill (grid0.coords t) d (iblk m c 2 t)) S)
      = win0_3.cut (grid0.coords t) (k0_pay4 (F := Ideal) (adjBlk m c t) S) := by
  funext j
  have hq : ∀ q : S480x128.Idx, (q 0).val < win0_2.xsize (grid0.coords t) 0 →
      k0_pay4 (F := Ideal) (win0_2.fill (grid0.coords t) d (iblk m c 2 t)) S q
        = k0_pay4 (F := Ideal) (adjBlk m c t) S q := by
    intro q hq
    rw [ValueIdx.eq_ix2 q]
    exact Pay.pay4_row_congr _ _ S (q 0) (fun k => adjBuf_row m c t d (q 0) hq k) (q 1)
  exact hq _ (by rw [← (xsize_rows t).1]; exact (j 0).isLt)
theorem cut_pay5 (c : Dev nD) (t : Fin cfg0.N) (d : win0_2.block.Idx → Elt Ideal .f32) (S : Vec Ideal S10000x256 .f32) :
    win0_4.cut (grid0.coords t) (k0_pay5 (F := Ideal) (win0_2.fill (grid0.coords t) d (iblk m c 2 t)) S)
      = win0_4.cut (grid0.coords t) (k0_pay5 (F := Ideal) (adjBlk m c t) S) := by
  funext j
  have hq : ∀ q : S480x128.Idx, (q 0).val < win0_2.xsize (grid0.coords t) 0 →
      k0_pay5 (F := Ideal) (win0_2.fill (grid0.coords t) d (iblk m c 2 t)) S q
        = k0_pay5 (F := Ideal) (adjBlk m c t) S q := by
    intro q hq
    rw [ValueIdx.eq_ix2 q]
    exact Pay.pay5_row_congr _ _ S (q 0) (fun k => adjBuf_row m c t d (q 0) hq k) (q 1)
  exact hq _ (by rw [← (xsize_rows t).2.1]; exact (j 0).isLt)

/-- So filling what the body left with the rows the obligation names changes nothing. -/
theorem fill_pay4 (c : Dev nD) (t : Fin cfg0.N) (d : win0_2.block.Idx → Elt Ideal .f32) (S : Vec Ideal S10000x256 .f32) :
    win0_3.fill (grid0.coords t)
        (k0_pay4 (F := Ideal) (win0_2.fill (grid0.coords t) d (iblk m c 2 t)) S : win0_3.block.Idx → Elt Ideal .f32)
        (win0_3.cut (grid0.coords t) (k0_pay4 (F := Ideal) (adjBlk m c t) S))
      = k0_pay4 (F := Ideal) (win0_2.fill (grid0.coords t) d (iblk m c 2 t)) S :=
  win0_3.fill_congr_cut (grid0.coords t) (cut_pay4 m c t d S)
theorem fill_pay5 (c : Dev nD) (t : Fin cfg0.N) (d : win0_2.block.Idx → Elt Ideal .f32) (S : Vec Ideal S10000x256 .f32) :
    win0_4.fill (grid0.coords t)
        (k0_pay5 (F := Ideal) (win0_2.fill (grid0.coords t) d (iblk m c 2 t)) S : win0_4.block.Idx → Elt Ideal .f32)
        (win0_4.cut (grid0.coords t) (k0_pay5 (F := Ideal) (adjBlk m c t) S))
      = k0_pay5 (F := Ideal) (win0_2.fill (grid0.coords t) d (iblk m c 2 t)) S :=
  win0_4.fill_congr_cut (grid0.coords t) (cut_pay5 m c t d S)

/-- The invariant before the first point: the scratch at anything. -/
theorem Φ_first (c : Dev nD) (t : Fin cfg0.N) (h0 : t.val = 0) :
    (dats m 0 c).Φ t.castSucc
      = iprop((∃ d, owns (c : Thread nD τ) (Memref.whole cc0_scratch0) fullShare d) ∗ ∃ r, prngReg c r) := by
  dsimp only [dats]
  rw [if_pos (show t.castSucc.val = 0 from h0)]

/-- The invariant before any later point, and after every point: the scratch at `sup`. -/
theorem Φ_later (c : Dev nD) (t : Fin cfg0.N) (h0 : ¬ t.val = 0) :
    (dats m 0 c).Φ t.castSucc
      = iprop(owns (c : Thread nD τ) (Memref.whole cc0_scratch0) fullShare (sup m c) ∗ ∃ r, prngReg c r) := by
  dsimp only [dats]
  rw [if_neg (show ¬ t.castSucc.val = 0 from h0)]
theorem Φ_succ (c : Dev nD) (t : Fin cfg0.N) :
    (dats m 0 c).Φ t.succ
      = iprop(owns (c : Thread nD τ) (Memref.whole cc0_scratch0) fullShare (sup m c) ∗ ∃ r, prngReg c r) := by
  dsimp only [dats]
  rw [if_neg (show ¬ t.succ.val = 0 from Nat.succ_ne_zero _)]

/-- The body obligation, every point. -/
theorem body_obligation (c : Dev nD) :
    BodyObligationLoose (dats m 0 c) (defs₀ (F := Ideal)) Variants.none () Set.univ := fun t => by
  rw [bigSep_W0, bigSep_W0]
  -- no point is idle; windows 2, 3 and 4 are loose (the matches reduce): their buffers are handed back stated on
  -- the rows inside the array
  simp only
  rw [show (dats m 0 c).owesAt () t.succ = (dats m 0 c).owesAt () t.castSucc from rfl, Φ_succ m c t,
    after0, after1, after2, after3, after4, show sup m c = supOf (F := Ideal) (xArr m c) (wcat m c) from rfl]
  show _ ⊢ wp frame (wpE (defs₀ (F := Ideal)) Variants.none c none) Set.univ (bodyAt0 t) _
  have h2 : win0_2.cut (grid0.coords t) (adjBlk m c t) = iblk m c 2 t := win0_2.cut_fill _ _ _
  by_cases h0 : t.val = 0
  · -- the first point: the scratch holds anything and is filled
    rw [Φ_first m c t h0]
    iintro ⟨⟨⟨%ds, HS⟩, Hg⟩, Ho, ⟨%d0, H0⟩, ⟨%d1, H1⟩, ⟨%d2, H2⟩, ⟨%d3, H3⟩, ⟨%d4, H4⟩⟩
    rw [before_0 m c t d0, before_1 m c t d1, before_2 m c t d2, before_3 m c t d3, before_4 m c t d4,
      iblk0_eq m c t, iblk1_eq m c t]
    iapply (run_first (F := Ideal) c (grid0.coords t) _ _ _ _ _ _ _ _ _ _ _ _ ((isFirst_iff t).mpr h0)
      (xArr m c) (wcat m c) (win0_2.fill (grid0.coords t) d2 (iblk m c 2 t)) Set.univ _)
    isplitl [H0]; · iexact H0
    isplitl [H1]; · iexact H1
    isplitl [H2]; · iexact H2
    isplitl [H3]; · iexists d3; iexact H3
    isplitl [H4]; · iexists d4; iexact H4
    isplitl [HS]; · iexists ds; iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]
    · -- the `adj` buffer is as it was found: the block on the rows inside the array, `d2` past them
      iexists d2
      change _ ⊢ owns (Val := Elt Ideal) (c : Thread nD τ) (stage0_2 (cfg0.slots t 2)) fullShare
        (win0_2.fill (grid0.coords t) d2 (win0_2.cut (grid0.coords t) (adjBlk m c t)))
      rw [h2]; try iexact H2
    isplitl [H3]
    · -- each output buffer holds the payload of the buffer's own contents, which on the rows the write-back moves
      -- is the payload of the block filled out with zeros
      iexists k0_pay4 (F := Ideal) (win0_2.fill (grid0.coords t) d2 (iblk m c 2 t)) (supOf (F := Ideal) (xArr m c) (wcat m c))
      change _ ⊢ owns (Val := Elt Ideal) (c : Thread nD τ) (stage0_3 (cfg0.slots t 3)) fullShare
        (win0_3.fill (grid0.coords t) _ (win0_3.cut (grid0.coords t) _))
      rw [fill_pay4 m c t d2]; try iexact H3
    · iexists k0_pay5 (F := Ideal) (win0_2.fill (grid0.coords t) d2 (iblk m c 2 t)) (supOf (F := Ideal) (xArr m c) (wcat m c))
      change _ ⊢ owns (Val := Elt Ideal) (c : Thread nD τ) (stage0_4 (cfg0.slots t 4)) fullShare
        (win0_4.fill (grid0.coords t) _ (win0_4.cut (grid0.coords t) _))
      rw [fill_pay5 m c t d2]; try iexact H4
  · -- a later point: the scratch holds `sup` and is only read
    rw [Φ_later m c t h0, show sup m c = supOf (F := Ideal) (xArr m c) (wcat m c) from rfl]
    iintro ⟨⟨HS, Hg⟩, Ho, ⟨%d0, H0⟩, ⟨%d1, H1⟩, ⟨%d2, H2⟩, ⟨%d3, H3⟩, ⟨%d4, H4⟩⟩
    rw [before_0 m c t d0, before_1 m c t d1, before_2 m c t d2, before_3 m c t d3, before_4 m c t d4,
      iblk0_eq m c t, iblk1_eq m c t]
    iapply (run_rest (F := Ideal) c (grid0.coords t) _ _ _ _ _ _ _ _ _ _ _ _ (fun h => h0 ((isFirst_iff t).mp h))
      (xArr m c) (wcat m c) (win0_2.fill (grid0.coords t) d2 (iblk m c 2 t)) (supOf (F := Ideal) (xArr m c) (wcat m c)) Set.univ _)
    isplitl [H0]; · iexact H0
    isplitl [H1]; · iexact H1
    isplitl [H2]; · iexact H2
    isplitl [H3]; · iexists d3; iexact H3
    isplitl [H4]; · iexists d4; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]
    · -- the `adj` buffer is as it was found: the block on the rows inside the array, `d2` past them
      iexists d2
      change _ ⊢ owns (Val := Elt Ideal) (c : Thread nD τ) (stage0_2 (cfg0.slots t 2)) fullShare
        (win0_2.fill (grid0.coords t) d2 (win0_2.cut (grid0.coords t) (adjBlk m c t)))
      rw [h2]; try iexact H2
    isplitl [H3]
    · -- each output buffer holds the payload of the buffer's own contents, which on the rows the write-back moves
      -- is the payload of the block filled out with zeros
      iexists k0_pay4 (F := Ideal) (win0_2.fill (grid0.coords t) d2 (iblk m c 2 t)) (supOf (F := Ideal) (xArr m c) (wcat m c))
      change _ ⊢ owns (Val := Elt Ideal) (c : Thread nD τ) (stage0_3 (cfg0.slots t 3)) fullShare
        (win0_3.fill (grid0.coords t) _ (win0_3.cut (grid0.coords t) _))
      rw [fill_pay4 m c t d2]; try iexact H3
    · iexists k0_pay5 (F := Ideal) (win0_2.fill (grid0.coords t) d2 (iblk m c 2 t)) (supOf (F := Ideal) (xArr m c) (wcat m c))
      change _ ⊢ owns (Val := Elt Ideal) (c : Thread nD τ) (stage0_4 (cfg0.slots t 4)) fullShare
        (win0_4.fill (grid0.coords t) _ (win0_4.cut (grid0.coords t) _))
      rw [fill_pay5 m c t d2]; try iexact H4

end Cert.KernelIdeal.Data

end
-- ==== Proof.Launch.lean ====
/-
  The idealized kernel's run, from the body obligation: the region is entered with the scratch at anything (the class
  invariant), the tracking invariant carries it at x · [W1 | W2] from the first point on, and gives it back at the end.
-/
import proofs.«151991_g85478439125828_cont_9to1_m_54_7_alg».proof.Proof.Data

set_option maxRecDepth 16384

noncomputable section

namespace Cert.KernelIdeal.Launch

open Cert.KernelIdeal Cert.KernelIdeal.Gen Cert.KernelIdeal.Body Cert.KernelIdeal.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The scratch's whole memref owned at contents `d` is the scratch buffer whole at `d`. -/
theorem scratch_owns (c : Dev nD) (d : Buf (Elt Ideal) ((c : Thread nD τ).loc cc0_scratch0)) :
    (owns (c : Thread nD τ) (Memref.whole cc0_scratch0) fullShare d : sProp 𝕄)
      = (((c : Thread nD τ).loc cc0_scratch0) ↦{fullShare} d) :=
  owns_whole (c : Thread nD τ) cc0_scratch0 fullShare d

/-- ENTERING the region: the class invariant holds the scratch at some contents, which is what the tracking invariant
    asks before the first point. -/
theorem enter (c : Dev nD) : (Pipeline.ΦA spec0 c : sProp 𝕄) ⊢ (dats m 0 c).Φ 0 := by
  unfold Pipeline.ΦA
  rw [scopedRest0_eq]
  dsimp only [dats]
  rw [if_pos (Fin.val_zero _)]
  iintro ⟨⟨%f, Hs⟩, Hr⟩
  isplitl [Hs]
  · iexists f; rw [scratch_owns]; iexact Hs
  iexact Hr

/-- LEAVING it: after the last of the 21 points the tracking invariant holds the scratch at x · [W1 | W2]; the class
    invariant asks only for some contents, so the name is dropped. -/
theorem leave (c : Dev nD) : (dats m 0 c).Φ (Fin.last cfg0.N) ⊢ (Pipeline.ΦA spec0 c : sProp 𝕄) := by
  unfold Pipeline.ΦA
  rw [scopedRest0_eq]
  dsimp only [dats]
  rw [if_neg (show ¬ (Fin.last cfg0.N).val = 0 from by
    rw [Fin.val_last]; have h : cfg0.N = 21 := N_0; omega), scratch_owns]
  iintro ⟨Hs, Hr⟩
  isplitl [Hs]
  · iexists (sup m c); iexact Hs
  iexact Hr

set_option backward.isDefEq.respectTransparency.types false in
/-- THE RUN: every weakly fair execution of @main terminates with every array of the pipeline at what the library
    computes from the proof data and every other unscoped buffer as the region found it. -/
theorem run_main : θ_run defs (onTc (τ := τ) (main (F := Ideal))) (s₀ m ρ) (Pipeline.FramePost cfgs (dats m) 0 (V m)) :=
  Pipeline.θ_run_frame_track cfgs (dats m) 0 launch0 defs₀ Variants.none m ρ main
    (hbody := fun c => Data.body_obligation m c) (hshare := fun c => (dats m 0 c).share_full fun _ => rfl)
    (howed := fun _ _ => rfl) (V := V m) (hmain := hmain m Variants.none) (hA := Data.A_eq m)
    (hin := enter m) (hout := leave m)

end Cert.KernelIdeal.Launch

end
-- ==== Proof.Cover.lean ====
/-
  The 21 output blocks cover the 10000 rows: row r of either result array lies in the block of point r / 480 (points
  0‥19 hold 480 rows each, point 20 the last 400), and every point writes its block back.
-/
import proofs.«151991_g85478439125828_cont_9to1_m_54_7_alg».proof.Proof.Gen.KernelIdeal.Frame

set_option maxRecDepth 16384

noncomputable section

namespace Cert.KernelIdeal.Cover

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Window 3's block at point `t` starts at row `480·t`, lane 0, and holds all 128 lanes and 480 rows, except the
    last point's, which is cut at the array's end to 400 rows: decided over the 21 points. -/
private theorem blk_facts3 : ∀ t : Fin cfg0.N, win0_3.index t (0 : Fin 2) = t.val ∧ win0_3.index t (1 : Fin 2) = 0
    ∧ win0_3.xsize (grid0.coords t) (0 : Fin 2) = (if t.val = 20 then 400 else 480)
    ∧ win0_3.xsize (grid0.coords t) (1 : Fin 2) = 128 :=
  (by decide +kernel : ∀ t : Fin grid0.N, win0_3.index t (0 : Fin 2) = t.val ∧ win0_3.index t (1 : Fin 2) = 0
    ∧ win0_3.xsize (grid0.coords t) (0 : Fin 2) = (if t.val = 20 then 400 else 480)
    ∧ win0_3.xsize (grid0.coords t) (1 : Fin 2) = 128)

/-- Row `r` of result array 3 lies in the block of point `r / 480`: `480·(r / 480) ≤ r < 480·(r / 480) + 480`, and for
    the last point `r < 10000 = 480·20 + 400`; every lane is in every block. -/
private theorem cover3_at (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have ht : (i 0).val / 480 < cfg0.N := lt_of_lt_of_eq (by omega : (i 0).val / 480 < 21) N_0.symm
  obtain ⟨e0, e1, e2, e3⟩ := blk_facts3 ⟨(i 0).val / 480, ht⟩
  refine ⟨⟨(i 0).val / 480, ht⟩, flush0_3 _, ?_⟩
  show i ∈ ((View.whole main_v1_0).slice (win0_3.rect ⟨(i 0).val / 480, ht⟩)).set
  rw [View.set_slice_whole, Rect.mem_set_unit]
  intro a
  match a with
  | ⟨0, _⟩ =>
    show win0_3.index ⟨(i 0).val / 480, ht⟩ (0 : Fin 2) * 480 ≤ (i 0).val
      ∧ (i 0).val < win0_3.index ⟨(i 0).val / 480, ht⟩ (0 : Fin 2) * 480
          + win0_3.xsize (grid0.coords ⟨(i 0).val / 480, ht⟩) (0 : Fin 2)
    rw [e0, e2]
    show (i 0).val / 480 * 480 ≤ (i 0).val
      ∧ (i 0).val < (i 0).val / 480 * 480 + (if (i 0).val / 480 = 20 then 400 else 480)
    split <;> omega
  | ⟨1, _⟩ =>
    show win0_3.index ⟨(i 0).val / 480, ht⟩ (1 : Fin 2) * 128 ≤ (i 1).val
      ∧ (i 1).val < win0_3.index ⟨(i 0).val / 480, ht⟩ (1 : Fin 2) * 128
          + win0_3.xsize (grid0.coords ⟨(i 0).val / 480, ht⟩) (1 : Fin 2)
    rw [e1, e3]
    omega

theorem cover3 (c : Dev nD) (i : ((cfg0.win 3).arr.view.loc (c.tc : Thread nD τ)).2.ty.Idx) :
    ∃ t : Fin cfg0.N, (cfg0.win 3).flush t = true ∧ i ∈ ((cfg0.win 3).blk t).view.set :=
  cover3_at i

/-- Window 4's block at point `t` starts at row `480·t`, lane 0, and holds all 128 lanes and 480 rows, except the
    last point's, which is cut at the array's end to 400 rows: decided over the 21 points. -/
private theorem blk_facts4 : ∀ t : Fin cfg0.N, win0_4.index t (0 : Fin 2) = t.val ∧ win0_4.index t (1 : Fin 2) = 0
    ∧ win0_4.xsize (grid0.coords t) (0 : Fin 2) = (if t.val = 20 then 400 else 480)
    ∧ win0_4.xsize (grid0.coords t) (1 : Fin 2) = 128 :=
  (by decide +kernel : ∀ t : Fin grid0.N, win0_4.index t (0 : Fin 2) = t.val ∧ win0_4.index t (1 : Fin 2) = 0
    ∧ win0_4.xsize (grid0.coords t) (0 : Fin 2) = (if t.val = 20 then 400 else 480)
    ∧ win0_4.xsize (grid0.coords t) (1 : Fin 2) = 128)

/-- Row `r` of result array 4 lies in the block of point `r / 480`: `480·(r / 480) ≤ r < 480·(r / 480) + 480`, and for
    the last point `r < 10000 = 480·20 + 400`; every lane is in every block. -/
private theorem cover4_at (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have ht : (i 0).val / 480 < cfg0.N := lt_of_lt_of_eq (by omega : (i 0).val / 480 < 21) N_0.symm
  obtain ⟨e0, e1, e2, e3⟩ := blk_facts4 ⟨(i 0).val / 480, ht⟩
  refine ⟨⟨(i 0).val / 480, ht⟩, flush0_4 _, ?_⟩
  show i ∈ ((View.whole main_v1_1).slice (win0_4.rect ⟨(i 0).val / 480, ht⟩)).set
  rw [View.set_slice_whole, Rect.mem_set_unit]
  intro a
  match a with
  | ⟨0, _⟩ =>
    show win0_4.index ⟨(i 0).val / 480, ht⟩ (0 : Fin 2) * 480 ≤ (i 0).val
      ∧ (i 0).val < win0_4.index ⟨(i 0).val / 480, ht⟩ (0 : Fin 2) * 480
          + win0_4.xsize (grid0.coords ⟨(i 0).val / 480, ht⟩) (0 : Fin 2)
    rw [e0, e2]
    show (i 0).val / 480 * 480 ≤ (i 0).val
      ∧ (i 0).val < (i 0).val / 480 * 480 + (if (i 0).val / 480 = 20 then 400 else 480)
    split <;> omega
  | ⟨1, _⟩ =>
    show win0_4.index ⟨(i 0).val / 480, ht⟩ (1 : Fin 2) * 128 ≤ (i 1).val
      ∧ (i 1).val < win0_4.index ⟨(i 0).val / 480, ht⟩ (1 : Fin 2) * 128
          + win0_4.xsize (grid0.coords ⟨(i 0).val / 480, ht⟩) (1 : Fin 2)
    rw [e1, e3]
    omega

theorem cover4 (c : Dev nD) (i : ((cfg0.win 4).arr.view.loc (c.tc : Thread nD τ)).2.ty.Idx) :
    ∃ t : Fin cfg0.N, (cfg0.win 4).flush t = true ∧ i ∈ ((cfg0.win 4).blk t).view.set :=
  cover4_at i

end Cert.KernelIdeal.Cover

end
-- ==== Proof.Final.lean ====
/-
  The two result arrays after the run, in closed form. Output window `w` writes back, at point `t`, the rows of its
  buffer that lie inside the array: rows 480·t ‥ 480·t + 479 (the last point: 9600 ‥ 9999). Those rows of the buffer
  are the layer's result at the same rows — the `adj` block's row is `adj`'s row, the scratch is x · [W1 | W2], whose
  two halves are x · W1 and x · W2 — and the 21 blocks cover the 10000 rows.
-/
import proofs.«151991_g85478439125828_cont_9to1_m_54_7_alg».proof.Proof.Data
import proofs.«151991_g85478439125828_cont_9to1_m_54_7_alg».proof.Proof.Inputs
import proofs.«151991_g85478439125828_cont_9to1_m_54_7_alg».proof.Proof.Cover

set_option maxRecDepth 16384

noncomputable section

namespace Cert.KernelIdeal.Final

open Cert.KernelIdeal Cert.KernelIdeal.Gen Cert.KernelIdeal.Body Cert.KernelIdeal.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ)

/-- The printed index maps and cut sizes at each of the 21 points: each of the three windows moves with the
    point along the rows and stays at lane block 0; a point moves 480 rows, the last one the 400 that remain. -/
theorem idx_facts : ∀ t : Fin cfg0.N,
    win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_2.xsize (grid0.coords t) (0 : Fin 2) = (if t.val = 20 then 400 else 480)
    ∧ win0_3.xsize (grid0.coords t) (0 : Fin 2) = (if t.val = 20 then 400 else 480)
    ∧ win0_4.xsize (grid0.coords t) (0 : Fin 2) = (if t.val = 20 then 400 else 480)
    ∧ win0_2.xsize (grid0.coords t) (1 : Fin 2) = 10000
    ∧ win0_3.xsize (grid0.coords t) (1 : Fin 2) = 128
    ∧ win0_4.xsize (grid0.coords t) (1 : Fin 2) = 128 :=
  (by decide +kernel : ∀ t : Fin grid0.N, _)

/-- A normalised row of (a block of `adj`) · (one half of the scratch) is the layer's row `R`, when the block's row
    is `adj`'s row `R` and that half of the scratch is `x · W`: both are the same sums over the same index sets. -/
theorem normRow_eq_outAt (a : Vec Ideal S480x10000 .f32) (s : Vec Ideal S10000x256 .f32)
    (x : Cert.Spec.Sx.Idx → EReal) (adj : Cert.Spec.Sadj.Idx → EReal) (W : Cert.Spec.Sw.Idx → EReal)
    (h : Fin 128 → Fin 256) (r : Fin 480) (R : Fin 10000) (cc : Fin 128)
    (ha : ∀ k : Fin 10000, a (ix2 r k) = adj (ix2 R k))
    (hs : ∀ (k : Fin 10000) (c' : Fin 128), s (ix2 k (h c')) = Cert.Spec.support x W k c') :
    Cert.Spec.normRow (fun c' => ∑ k : Fin 10000, a (ix2 r k) * s (ix2 k (h c'))) cc = Cert.Spec.outAt x adj W R cc := by
  refine congrArg (fun f => Cert.Spec.normRow f cc) (funext fun c' => ?_)
  show _ = ∑ k : Fin 10000, adj (ix2 R k) * Cert.Spec.support x W k c'
  exact Finset.sum_congr rfl fun k _ => by rw [ha, hs]

/-- The scratch's first half is x · W1, -/
theorem sup_lo (c : Dev nD) (k : Fin 10000) (c' : Fin 128) :
    sup m c (ix2 k (Pay.lo c'))
      = Cert.Spec.support (m ((c.tc : Thread nD τ).loc main_arg0)) (m ((c.tc : Thread nD τ).loc main_arg2)) k c' := by
  unfold sup Cert.Spec.support
  rw [supOf_apply]
  refine Finset.sum_congr rfl fun j _ => ?_
  unfold wcat xArr
  rw [Inputs.wcat_lo, Inputs.x_eq]

/-- its second half x · W2. -/
theorem sup_hi (c : Dev nD) (k : Fin 10000) (c' : Fin 128) :
    sup m c (ix2 k (Pay.hi c'))
      = Cert.Spec.support (m ((c.tc : Thread nD τ).loc main_arg0)) (m ((c.tc : Thread nD τ).loc main_arg3)) k c' := by
  unfold sup Cert.Spec.support
  rw [supOf_apply]
  refine Finset.sum_congr rfl fun j _ => ?_
  unfold wcat xArr
  rw [Inputs.wcat_hi, Inputs.x_eq]

/-- Row `r` of point `t`'s block of `adj`, a row inside the array, is row 480·t + r of `adj`. -/
theorem adjBlk_row (c : Dev nD) (t : Fin cfg0.N) (r : Fin 480) (hr : r.val < win0_2.xsize (grid0.coords t) 0)
    (R : Fin 10000) (hR : R.val = 480 * t.val + r.val) (k : Fin 10000) :
    adjBlk m c t (ix2 r k) = m ((c.tc : Thread nD τ).loc main_arg1) (ix2 R k) := by
  obtain ⟨-, -, -, -, -, -, -, -, -, x21, -, -⟩ := idx_facts t
  have hmv : win0_2.moved (grid0.coords t) (ix2 r k) = true := (win0_2.moved_iff _ _).mpr fun a => by
    match a with
    | ⟨0, _⟩ => exact hr
    | ⟨1, _⟩ => show k.val < win0_2.xsize (grid0.coords t) 1; rw [x21]; exact k.isLt
  unfold adjBlk Window.fill
  rw [dif_pos hmv]
  exact Inputs.adj_row m c t _ R k hR rfl

/-- WHAT POINT `t` WRITES BACK to output window 3's array is its block of the layer's result with weights `W1`: a row of
    the buffer inside the array is the normalised row of `adj`'s row times that half of the scratch. -/
theorem flushed3_eq (c : Dev nD) (t : Fin cfg0.N) :
    (dats m 0 c).flushed 3 t = ((cfg0.win 3).blk t).view.read (Elt Ideal)
      (Cert.Spec.out (m ((c.tc : Thread nD τ).loc main_arg0)) (m ((c.tc : Thread nD τ).loc main_arg1)) (m ((c.tc : Thread nD τ).loc main_arg2))) := by
  show (cfg0.win 3).cut (grid0.coords t) ((dats m 0 c).after 3 t) = _
  rw [after3]
  funext j
  rw [View.read_apply]
  obtain ⟨-, -, e30, e31, e40, e41, x20, x30, x40, -, x31, x41⟩ := idx_facts t
  have hN : t.val < 21 := Nat.lt_of_lt_of_eq t.isLt N_0
  have hj0 : (j 0).val < win0_3.xsize (grid0.coords t) 0 := (j 0).isLt
  have hj1 : (j 1).val < win0_3.xsize (grid0.coords t) 1 := (j 1).isLt
  rw [x30] at hj0; rw [x31] at hj1
  have hr : (j 0).val < 480 := by split at hj0 <;> omega
  have hR : 480 * t.val + (j 0).val < 10000 := by split at hj0 <;> omega
  -- the buffer's index under block index `j`, and the array's
  have hx : win0_3.xinj (grid0.coords t) j = ix2 (⟨(j 0).val, hr⟩ : Fin 480) (⟨(j 1).val, hj1⟩ : Fin 128) := funext fun a => by
    match a with
    | ⟨0, _⟩ => rfl
    | ⟨1, _⟩ => rfl
  have he : ((cfg0.win 3).blk t).view.emb j = ix2 (⟨480 * t.val + (j 0).val, hR⟩ : Fin 10000) (⟨(j 1).val, hj1⟩ : Fin 128) := funext fun a => Fin.ext (by
    match a with
    | ⟨0, _⟩ => show win0_3.index t 0 * 480 + 1 * (j 0).val = 480 * t.val + (j 0).val; rw [e30]; omega
    | ⟨1, _⟩ => show win0_3.index t 1 * 128 + 1 * (j 1).val = (j 1).val; rw [e31]; omega)
  show k0_pay4 (F := Ideal) (adjBlk m c t) (sup m c) (win0_3.xinj (grid0.coords t) j)
    = Cert.Spec.out _ _ _ (((cfg0.win 3).blk t).view.emb j)
  rw [hx, he, Pay.pay4_apply, Cert.Spec.out_ix2]
  exact normRow_eq_outAt _ _ _ _ _ Pay.lo _ _ _ (fun k => adjBlk_row m c t _ (by rw [x20]; exact hj0) _ rfl k) (sup_lo m c)

/-- WHAT POINT `t` WRITES BACK to output window 4's array is its block of the layer's result with weights `W2`: a row of
    the buffer inside the array is the normalised row of `adj`'s row times that half of the scratch. -/
theorem flushed4_eq (c : Dev nD) (t : Fin cfg0.N) :
    (dats m 0 c).flushed 4 t = ((cfg0.win 4).blk t).view.read (Elt Ideal)
      (Cert.Spec.out (m ((c.tc : Thread nD τ).loc main_arg0)) (m ((c.tc : Thread nD τ).loc main_arg1)) (m ((c.tc : Thread nD τ).loc main_arg3))) := by
  show (cfg0.win 4).cut (grid0.coords t) ((dats m 0 c).after 4 t) = _
  rw [after4]
  funext j
  rw [View.read_apply]
  obtain ⟨-, -, e30, e31, e40, e41, x20, x30, x40, -, x31, x41⟩ := idx_facts t
  have hN : t.val < 21 := Nat.lt_of_lt_of_eq t.isLt N_0
  have hj0 : (j 0).val < win0_4.xsize (grid0.coords t) 0 := (j 0).isLt
  have hj1 : (j 1).val < win0_4.xsize (grid0.coords t) 1 := (j 1).isLt
  rw [x40] at hj0; rw [x41] at hj1
  have hr : (j 0).val < 480 := by split at hj0 <;> omega
  have hR : 480 * t.val + (j 0).val < 10000 := by split at hj0 <;> omega
  -- the buffer's index under block index `j`, and the array's
  have hx : win0_4.xinj (grid0.coords t) j = ix2 (⟨(j 0).val, hr⟩ : Fin 480) (⟨(j 1).val, hj1⟩ : Fin 128) := funext fun a => by
    match a with
    | ⟨0, _⟩ => rfl
    | ⟨1, _⟩ => rfl
  have he : ((cfg0.win 4).blk t).view.emb j = ix2 (⟨480 * t.val + (j 0).val, hR⟩ : Fin 10000) (⟨(j 1).val, hj1⟩ : Fin 128) := funext fun a => Fin.ext (by
    match a with
    | ⟨0, _⟩ => show win0_4.index t 0 * 480 + 1 * (j 0).val = 480 * t.val + (j 0).val; rw [e40]; omega
    | ⟨1, _⟩ => show win0_4.index t 1 * 128 + 1 * (j 1).val = (j 1).val; rw [e41]; omega)
  show k0_pay5 (F := Ideal) (adjBlk m c t) (sup m c) (win0_4.xinj (grid0.coords t) j)
    = Cert.Spec.out _ _ _ (((cfg0.win 4).blk t).view.emb j)
  rw [hx, he, Pay.pay5_apply, Cert.Spec.out_ix2]
  exact normRow_eq_outAt _ _ _ _ _ Pay.hi _ _ _ (fun k => adjBlk_row m c t _ (by rw [x20]; exact hj0) _ rfl k) (sup_hi m c)

/-- The first result array after the run: the layer's result with weights W1 (every point's write-back is its block of
    it, and the blocks cover the array). -/
theorem final3 (c : Dev nD) : (dats m 0 c).arrAt 3 cfg0.N
    = Cert.Spec.out (m ((c.tc : Thread nD τ).loc main_arg0)) (m ((c.tc : Thread nD τ).loc main_arg1)) (m ((c.tc : Thread nD τ).loc main_arg2)) :=
  (dats m 0 c).arrAt_eq_of_cover 3 _ (fun t _ => flushed3_eq m c t) (Cover.cover3 c)

/-- The second result array after the run: the layer's result with weights W2. -/
theorem final4 (c : Dev nD) : (dats m 0 c).arrAt 4 cfg0.N
    = Cert.Spec.out (m ((c.tc : Thread nD τ).loc main_arg0)) (m ((c.tc : Thread nD τ).loc main_arg1)) (m ((c.tc : Thread nD τ).loc main_arg3)) :=
  (dats m 0 c).arrAt_eq_of_cover 4 _ (fun t _ => flushed4_eq m c t) (Cover.cover4 c)

end Cert.KernelIdeal.Final

end
-- ==== Proof.RefValue.lean ====
/-
  The reference's two results are the specification: each is adj · (x · W) with every row divided by the larger of
  its Euclidean norm and ε, which is what the reference's operations say when read one at a time at an index (the
  host's sum starts from the zero word, which is the real 0).
-/
import proofs.«151991_g85478439125828_cont_9to1_m_54_7_alg».proof.Proof.Gen.ReferenceIdeal.Read
import proofs.«151991_g85478439125828_cont_9to1_m_54_7_alg».proof.Proof.Spec

noncomputable section

namespace Cert.RefValue

open Cert.ReferenceIdeal Cert.ReferenceIdeal.Gen Cert.ReferenceIdeal.Read Idealize.ShloMosaic Idealize.ShloMosaic.ValueIdx

/-- The first feature product x · W at row k, lane c: the sum over the 128 input features, the contracted index
    running along x's row k and down W's column c. -/
private theorem support1_at (x : (⟨S10000x128, .f32⟩ : BufTy).Contents (Elt Ideal)) (W : (⟨S128x128, .f32⟩ : BufTy).Contents (Elt Ideal))
    (k : Fin 10000) (c : Fin 128) :
    val_main_v0 (F := Ideal) x W (ix2 k c) = Cert.Spec.support x W k c := by
  rw [val_main_v0_apply]
  unfold Cert.Spec.support
  refine Finset.sum_congr rfl fun j _ => ?_
  have el : lidx_main_v0 (ix2 k c) j = ix2 k j :=
    funext fun a => Fin.ext (by match a with | ⟨0, _⟩ => rfl | ⟨1, _⟩ => rfl)
  have er : ridx_main_v0 (ix2 k c) j = ix2 j c :=
    funext fun a => Fin.ext (by match a with | ⟨0, _⟩ => rfl | ⟨1, _⟩ => rfl)
  rw [el, er]

/-- The first aggregation adj · (x · W) at row r, lane c: the sum over the 10000 nodes, the contracted index running
    along adj's row r and down column c of the feature product. -/
private theorem agg1_at (x : (⟨S10000x128, .f32⟩ : BufTy).Contents (Elt Ideal)) (adj : (⟨S10000x10000, .f32⟩ : BufTy).Contents (Elt Ideal))
    (W : (⟨S128x128, .f32⟩ : BufTy).Contents (Elt Ideal)) (r : Fin 10000) (c : Fin 128) :
    val_main_v1 (F := Ideal) x adj W (ix2 r c) = Cert.Spec.agg x adj W r c := by
  rw [val_main_v1_apply]
  unfold Cert.Spec.agg
  refine Finset.sum_congr rfl fun k _ => ?_
  have el : lidx_main_v1 (ix2 r c) k = ix2 r k :=
    funext fun a => Fin.ext (by match a with | ⟨0, _⟩ => rfl | ⟨1, _⟩ => rfl)
  have er : ridx_main_v1 (ix2 r c) k = ix2 k c :=
    funext fun a => Fin.ext (by match a with | ⟨0, _⟩ => rfl | ⟨1, _⟩ => rfl)
  rw [el, er, support1_at]

/-- The first result at (r, c) is the quotient of the aggregation's entry by the larger of ε and the square root of
    the sum of squares along row r: the row sum is broadcast back over the 128 lanes, so every lane of row r reads
    the same sum, whose summand at lane c' is the aggregation's entry (r, c') squared; it starts from the zero word,
    which is the real 0. -/
theorem out1_eq (x : (⟨S10000x128, .f32⟩ : BufTy).Contents (Elt Ideal)) (adj : (⟨S10000x10000, .f32⟩ : BufTy).Contents (Elt Ideal))
    (W : (⟨S128x128, .f32⟩ : BufTy).Contents (Elt Ideal)) :
    val_main_v11 (F := Ideal) x adj W = Cert.Spec.out x adj W := by
  funext i
  obtain ⟨r, c, rfl⟩ : ∃ (r : Fin 10000) (c : Fin 128), i = ix2 r c := ⟨i 0, i 1, eq_ix2 i⟩
  have erow : ∀ k : Fin 128, idx_main_v5 (idx_main_v6 (idx_main_v10 (ix2 r c))) k = ix2 r k := fun k =>
    funext fun a => Fin.ext (by match a with | ⟨0, _⟩ => rfl | ⟨1, _⟩ => rfl)
  rw [val_main_v11_apply, val_main_v10_apply, val_main_v9_apply, val_main_v7_apply, val_main_v6_apply, val_main_v5_apply,
    val_main_v8_apply, val_main_cst_0_apply, val_main_cst_apply, agg1_at]
  simp only [val_main_v4_apply, erow, agg1_at, Ideal.hostDivf_def, Ideal.hostUnary_sqrt_def, Ideal.maximumf_def, Ideal.mulf_def,
    Ideal.ofBits_def, Ideal.ofBits_zero_f32, zero_add]
  rfl

/-- The second feature product x · W at row k, lane c: the sum over the 128 input features, the contracted index
    running along x's row k and down W's column c. -/
private theorem support2_at (x : (⟨S10000x128, .f32⟩ : BufTy).Contents (Elt Ideal)) (W : (⟨S128x128, .f32⟩ : BufTy).Contents (Elt Ideal))
    (k : Fin 10000) (c : Fin 128) :
    val_main_v2 (F := Ideal) x W (ix2 k c) = Cert.Spec.support x W k c := by
  rw [val_main_v2_apply]
  unfold Cert.Spec.support
  refine Finset.sum_congr rfl fun j _ => ?_
  have el : lidx_main_v2 (ix2 k c) j = ix2 k j :=
    funext fun a => Fin.ext (by match a with | ⟨0, _⟩ => rfl | ⟨1, _⟩ => rfl)
  have er : ridx_main_v2 (ix2 k c) j = ix2 j c :=
    funext fun a => Fin.ext (by match a with | ⟨0, _⟩ => rfl | ⟨1, _⟩ => rfl)
  rw [el, er]

/-- The second aggregation adj · (x · W) at row r, lane c: the sum over the 10000 nodes, the contracted index running
    along adj's row r and down column c of the feature product. -/
private theorem agg2_at (x : (⟨S10000x128, .f32⟩ : BufTy).Contents (Elt Ideal)) (adj : (⟨S10000x10000, .f32⟩ : BufTy).Contents (Elt Ideal))
    (W : (⟨S128x128, .f32⟩ : BufTy).Contents (Elt Ideal)) (r : Fin 10000) (c : Fin 128) :
    val_main_v3 (F := Ideal) x adj W (ix2 r c) = Cert.Spec.agg x adj W r c := by
  rw [val_main_v3_apply]
  unfold Cert.Spec.agg
  refine Finset.sum_congr rfl fun k _ => ?_
  have el : lidx_main_v3 (ix2 r c) k = ix2 r k :=
    funext fun a => Fin.ext (by match a with | ⟨0, _⟩ => rfl | ⟨1, _⟩ => rfl)
  have er : ridx_main_v3 (ix2 r c) k = ix2 k c :=
    funext fun a => Fin.ext (by match a with | ⟨0, _⟩ => rfl | ⟨1, _⟩ => rfl)
  rw [el, er, support2_at]

/-- The second result at (r, c) is the quotient of the aggregation's entry by the larger of ε and the square root of
    the sum of squares along row r: the row sum is broadcast back over the 128 lanes, so every lane of row r reads
    the same sum, whose summand at lane c' is the aggregation's entry (r, c') squared; it starts from the zero word,
    which is the real 0. -/
theorem out2_eq (x : (⟨S10000x128, .f32⟩ : BufTy).Contents (Elt Ideal)) (adj : (⟨S10000x10000, .f32⟩ : BufTy).Contents (Elt Ideal))
    (W : (⟨S128x128, .f32⟩ : BufTy).Contents (Elt Ideal)) :
    val_main_v19 (F := Ideal) x adj W = Cert.Spec.out x adj W := by
  funext i
  obtain ⟨r, c, rfl⟩ : ∃ (r : Fin 10000) (c : Fin 128), i = ix2 r c := ⟨i 0, i 1, eq_ix2 i⟩
  have erow : ∀ k : Fin 128, idx_main_v13 (idx_main_v14 (idx_main_v18 (ix2 r c))) k = ix2 r k := fun k =>
    funext fun a => Fin.ext (by match a with | ⟨0, _⟩ => rfl | ⟨1, _⟩ => rfl)
  rw [val_main_v19_apply, val_main_v18_apply, val_main_v17_apply, val_main_v15_apply, val_main_v14_apply, val_main_v13_apply,
    val_main_v16_apply, val_main_cst_2_apply, val_main_cst_1_apply, agg2_at]
  simp only [val_main_v12_apply, erow, agg2_at, Ideal.hostDivf_def, Ideal.hostUnary_sqrt_def, Ideal.maximumf_def, Ideal.mulf_def,
    Ideal.ofBits_def, Ideal.ofBits_zero_f32, zero_add]
  rfl

end Cert.RefValue

end
-- ==== Proof.lean ====
/-
  One graph-convolution layer with row-wise L2 normalisation, twice (weights W1 and W2), as ONE pallas_call over 21
  blocks of 480 rows of the dense adjacency, against jnp's two separate products. The kernel computes
  x · [W1 | W2] once into a scratch at the first grid point and at every point multiplies its rows of `adj` by it;
  columns 0‥127 and 128‥255 of that product are adj · (x · W1) and adj · (x · W2), sums over the same index sets as the
  reference's, so the two sides agree on the extended reals with no appeal to finiteness. The last block overhangs the
  array by 80 rows: a row of the product reads only the same row of `adj`, and the write-back keeps only the rows inside.
  The three frames, the (empty) ledger, and the value claim are assembled here from the modules under Proof/.
-/
import proofs.«151991_g85478439125828_cont_9to1_m_54_7_alg».proof.Defs
import proofs.«151991_g85478439125828_cont_9to1_m_54_7_alg».proof.Proof.Gen.Kernel
import proofs.«151991_g85478439125828_cont_9to1_m_54_7_alg».proof.Proof.Gen.Kernel.Skeleton
import proofs.«151991_g85478439125828_cont_9to1_m_54_7_alg».proof.Proof.Gen.Kernel.Launch
import proofs.«151991_g85478439125828_cont_9to1_m_54_7_alg».proof.Proof.Gen.Kernel.Points
import proofs.«151991_g85478439125828_cont_9to1_m_54_7_alg».proof.Proof.Gen.Kernel.Frame
import proofs.«151991_g85478439125828_cont_9to1_m_54_7_alg».proof.Proof.Gen.KernelIdeal
import proofs.«151991_g85478439125828_cont_9to1_m_54_7_alg».proof.Proof.Gen.KernelIdeal.Skeleton
import proofs.«151991_g85478439125828_cont_9to1_m_54_7_alg».proof.Proof.Gen.KernelIdeal.Launch
import proofs.«151991_g85478439125828_cont_9to1_m_54_7_alg».proof.Proof.Gen.KernelIdeal.Points
import proofs.«151991_g85478439125828_cont_9to1_m_54_7_alg».proof.Proof.Gen.KernelIdeal.Frame
import proofs.«151991_g85478439125828_cont_9to1_m_54_7_alg».proof.Proof.Gen.ReferenceIdeal
import proofs.«151991_g85478439125828_cont_9to1_m_54_7_alg».proof.Proof.Gen.Pre_finite_inputs
import proofs.«151991_g85478439125828_cont_9to1_m_54_7_alg».proof.Proof.Gen.ReferenceIdeal.Run
import proofs.«151991_g85478439125828_cont_9to1_m_54_7_alg».proof.Proof.Gen.ReferenceIdeal.Read
import Idealize.ShloMosaic.Adequacy
import Idealize.ShloMosaic.Init

import proofs.«151991_g85478439125828_cont_9to1_m_54_7_alg».proof.Proof.WordFrame
import proofs.«151991_g85478439125828_cont_9to1_m_54_7_alg».proof.Proof.Launch
import proofs.«151991_g85478439125828_cont_9to1_m_54_7_alg».proof.Proof.Final
import proofs.«151991_g85478439125828_cont_9to1_m_54_7_alg».proof.Proof.RefValue

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.WordFrame.frame (F := Bits) m ρ

theorem frame_ki : @Cert.frame_KernelIdeal Cert.KernelIdeal.Gen.facts Cert.Pre_finite_inputs.Gen.facts :=
  fun m ρ _ => Cert.KernelIdeal.Gen.frame_of m ρ (Cert.KernelIdeal.Data.dats m) (Cert.KernelIdeal.Data.A_eq m)
    (Cert.KernelIdeal.Launch.run_main m ρ)

theorem frame_r : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.out (m ((c.tc : Thread _ _).loc Cert.KernelIdeal.main_arg0)) (m ((c.tc : Thread _ _).loc Cert.KernelIdeal.main_arg1)) (m ((c.tc : Thread _ _).loc Cert.KernelIdeal.main_arg2)),
    fun c => Cert.Spec.out (m ((c.tc : Thread _ _).loc Cert.KernelIdeal.main_arg0)) (m ((c.tc : Thread _ _).loc Cert.KernelIdeal.main_arg1)) (m ((c.tc : Thread _ _).loc Cert.KernelIdeal.main_arg3)), ?_, ?_⟩
  · -- the kernel's run: the two result arrays in closed form, the four arguments as the region found them
    refine (θ_run Cert.KernelIdeal.defs _ _).mono (fun r h c => ?_) (Cert.KernelIdeal.Launch.run_main m ρ)
    exact ⟨((h c).1 3).trans (Cert.KernelIdeal.Final.final3 m c), ((h c).1 4).trans (Cert.KernelIdeal.Final.final4 m c),
      ((h c).1 0).trans (((Cert.KernelIdeal.Data.dats m 0 c).arrAt_in 0 rfl _).trans
        ((Cert.KernelIdeal.Data.A_eq m c 0).trans (Cert.KernelIdeal.Gen.V_main_arg0 m c))),
      ((h c).1 2).trans (((Cert.KernelIdeal.Data.dats m 0 c).arrAt_in 2 rfl _).trans
        ((Cert.KernelIdeal.Data.A_eq m c 2).trans (Cert.KernelIdeal.Gen.V_main_arg1 m c))),
      ((h c).2 Cert.KernelIdeal.main_arg2 (Pipeline.mem_restRefs_of Cert.KernelIdeal.main_arg2 (by decide) (by decide))).trans
        (Cert.KernelIdeal.Gen.V_main_arg2 m c),
      ((h c).2 Cert.KernelIdeal.main_arg3 (Pipeline.mem_restRefs_of Cert.KernelIdeal.main_arg3 (by decide) (by decide))).trans
        (Cert.KernelIdeal.Gen.V_main_arg3 m c)⟩
  · -- the reference's run: each result term is the specification of its own arguments, which agree with the kernel's
    refine (θ_run Cert.ReferenceIdeal.defs _ _).mono (fun r h c => ?_) (Cert.ReferenceIdeal.Value.run (F := Ideal) m' ρ')
    obtain ⟨h11, h19, ha0, ha1, ha2, ha3⟩ := h c
    refine ⟨?_, ?_, ha0, ha1, ha2, ha3⟩
    · rw [h11, Cert.ReferenceIdeal.Read.val_main_v11_eq, Cert.RefValue.out1_eq, (hagree c).1, (hagree c).2.1, (hagree c).2.2.1]
    · rw [h19, Cert.ReferenceIdeal.Read.val_main_v19_eq, Cert.RefValue.out2_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
